-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2400000 : Shape := ⟨1, ![2400000]⟩
abbrev S16384 : Shape := ⟨1, ![16384]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2400000 : S_.BroadcastsInDim S2400000 (![] : Fin 0 → Fin S2400000.rank)
  reducesTo_S2400000_S_d0 : S2400000.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg5 : IVec S16384 32) (main_arg6 : IVec S16384 32) (main_v13 : IVec S_ 1) (main_v15 : IVec S16384 1) (main_c_5 : IVec S_ 1) : IVec S_ 1 :=
  let main_v16 : IVec S_ 1 := (fun x v => Host.reduce IntOp.andi x v reducesTo_S16384_S_d0 h_S_) main_v15 main_c_5
  let main_v17 : IVec S_ 1 := andi main_v13 main_v16
  let main_c_6 : IVec S_ 32 := constantI S_ 32 100000#32
  let main_v18 : IVec S16384 32 := broadcastInDim S16384 ![] bcast_S_S16384 main_c_6
  let main_v19 : IVec S16384 1 := cmpi .slt main_arg5 main_v18
  let main_c_7 : IVec S_ 1 := constantI S_ 1 1#1
  let main_v20 : IVec S_ 1 := (fun x v => Host.reduce IntOp.andi x v reducesTo_S16384_S_d0 h_S_) main_v19 main_c_7
  let main_v21 : IVec S_ 1 := andi main_v17 main_v20
  let main_c_8 : IVec S_ 32 := constantI S_ 32 0#32
  let main_v22 : IVec S16384 32 := broadcastInDim S16384 ![] bcast_S_S16384 main_c_8
  let main_v23 : IVec S16384 1 := cmpi .sge main_arg6 main_v22
  let main_c_9 : IVec S_ 1 := constantI S_ 1 1#1
  let main_v24 : IVec S_ 1 := (fun x v => Host.reduce IntOp.andi x v reducesTo_S16384_S_d0 h_S_) main_v23 main_c_9
  let main_v25 : IVec S_ 1 := andi main_v21 main_v24
  let main_c_10 : IVec S_ 32 := constantI S_ 32 50000#32
  let main_v26 : IVec S16384 32 := broadcastInDim S16384 ![] bcast_S_S16384 main_c_10
  let main_v27 : IVec S16384 1 := cmpi .slt main_arg6 main_v26
  let main_c_11 : IVec S_ 1 := constantI S_ 1 1#1
  let main_v28 : IVec S_ 1 := (fun x v => Host.reduce IntOp.andi x v reducesTo_S16384_S_d0 h_S_) main_v27 main_c_11
  let main_v29 : IVec S_ 1 := andi main_v25 main_v28
  main_v29

def fn {F : FTy → Type} [FloatOps F] (main_arg0 : FVec F S100000x64 .f32) (main_arg1 : FVec F S50000x64 .f32) (main_arg2 : IVec S2400000 32) (main_arg3 : IVec S2400000 32) (main_arg4 : FVec F S2400000 .f32) (main_arg5 : IVec S16384 32) (main_arg6 : IVec S16384 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2400000 .f32 := Host.absf main_arg4
  let main_cst_2 : FVec F S_ .f32 := constant S_ .f32 0x7F800000#32
  let main_v10 : FVec F S2400000 .f32 := broadcastInDim S2400000 ![] bcast_S_S2400000 main_cst_2
  let main_v11 : IVec S2400000 1 := cmpf .olt main_v9 main_v10
  let main_c_3 : IVec S_ 1 := constantI S_ 1 1#1
  let main_v12 : IVec S_ 1 := (fun x v => Host.reduce IntOp.andi x v reducesTo_S2400000_S_d0 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg5 main_v14
  let main_c_5 : IVec S_ 1 := constantI S_ 1 1#1
  fn_part1 (F := F) main_arg5 main_arg6 main_v13 main_v15 main_c_5
-- ==== Kernel.lean ====
abbrev S100000x64 : Shape := ⟨2, ![100000, 64]⟩
abbrev S50000x64 : Shape := ⟨2, ![50000, 64]⟩
abbrev S2400000 : Shape := ⟨1, ![2400000]⟩
abbrev S16384 : Shape := ⟨1, ![16384]⟩
abbrev S150000x64 : Shape := ⟨2, ![150000, 64]⟩
abbrev S_ : Shape := ⟨0, ![]⟩
abbrev S2400000x1 : Shape := ⟨2, ![2400000, 1]⟩
abbrev S2400000x64 : Shape := ⟨2, ![2400000, 64]⟩
abbrev S6000x64 : Shape := ⟨2, ![6000, 64]⟩
abbrev S100000x1x64 : Shape := ⟨3, ![100000, 1, 64]⟩
abbrev S50000x1x64 : Shape := ⟨3, ![50000, 1, 64]⟩
abbrev S16384x1x1 : Shape := ⟨3, ![16384, 1, 1]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩

abbrev nBuf : Space → Nat
  | .hbm => 61
  | .vmem => 16
  | .smem => 2
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2400000, .i32⟩
  | .hbm, ⟨3, _⟩ => ⟨S2400000, .i32⟩
  | .hbm, ⟨4, _⟩ => ⟨S2400000, .f32⟩
  | .hbm, ⟨5, _⟩ => ⟨S150000x64, .f32⟩
  | .hbm, ⟨6, _⟩ => ⟨S_, .i32⟩
  | .hbm, ⟨7, _⟩ => ⟨S2400000, .i32⟩
  | .hbm, ⟨8, _⟩ => ⟨S2400000, .i1⟩
  | .hbm, ⟨9, _⟩ => ⟨S_, .i32⟩
  | .hbm, ⟨10, _⟩ => ⟨S2400000, .i32⟩
  | .hbm, ⟨11, _⟩ => ⟨S2400000, .i32⟩
  | .hbm, ⟨12, _⟩ => ⟨S2400000, .i32⟩
  | .hbm, ⟨13, _⟩ => ⟨S2400000x1, .i32⟩
  | .hbm, ⟨14, _⟩ => ⟨S2400000x64, .f32⟩
  | .hbm, ⟨15, _⟩ => ⟨S2400000x1, .f32⟩
  | .hbm, ⟨16, _⟩ => ⟨S2400000x64, .f32⟩
  | .hbm, ⟨17, _⟩ => ⟨S2400000x64, .f32⟩
  | .hbm, ⟨18, _⟩ => ⟨S_, .f32⟩
  | .hbm, ⟨19, _⟩ => ⟨S150000x64, .f32⟩
  | .hbm, ⟨20, _⟩ => ⟨S2400000x1, .i32⟩
  | .hbm, ⟨21, _⟩ => ⟨S150000x64, .f32⟩
  | .hbm, ⟨22, _⟩ => ⟨S_, .i32⟩
  | .hbm, ⟨23, _⟩ => ⟨S2400000, .i32⟩
  | .hbm, ⟨24, _⟩ => ⟨S2400000, .i1⟩
  | .hbm, ⟨25, _⟩ => ⟨S_, .i32⟩
  | .hbm, ⟨26, _⟩ => ⟨S2400000, .i32⟩
  | .hbm, ⟨27, _⟩ => ⟨S2400000, .i32⟩
  | .hbm, ⟨28, _⟩ => ⟨S2400000, .i32⟩
  | .hbm, ⟨29, _⟩ => ⟨S2400000x1, .i32⟩
  | .hbm, ⟨30, _⟩ => ⟨S2400000x64, .f32⟩
  | .hbm, ⟨31, _⟩ => ⟨S2400000x1, .f32⟩
  | .hbm, ⟨32, _⟩ => ⟨S2400000x64, .f32⟩
  | .hbm, ⟨33, _⟩ => ⟨S2400000x64, .f32⟩
  | .hbm, ⟨34, _⟩ => ⟨S_, .f32⟩
  | .hbm, ⟨35, _⟩ => ⟨S150000x64, .f32⟩
  | .hbm, ⟨36, _⟩ => ⟨S2400000x1, .i32⟩
  | .hbm, ⟨37, _⟩ => ⟨S150000x64, .f32⟩
  | .hbm, ⟨38, _⟩ => ⟨S_, .i32⟩
  | .hbm, ⟨39, _⟩ => ⟨S2400000, .i32⟩
  | .hbm, ⟨40, _⟩ => ⟨S2400000, .i1⟩
  | .hbm, ⟨41, _⟩ => ⟨S_, .i32⟩
  | .hbm, ⟨42, _⟩ => ⟨S2400000, .i32⟩
  | .hbm, ⟨43, _⟩ => ⟨S2400000, .i32⟩
  | .hbm, ⟨44, _⟩ => ⟨S2400000, .i32⟩
  | .hbm, ⟨45, _⟩ => ⟨S2400000x1, .i32⟩
  | .hbm, ⟨46, _⟩ => ⟨S2400000x64, .f32⟩
  | .hbm, ⟨47, _⟩ => ⟨S2400000x1, .f32⟩
  | .hbm, ⟨48, _⟩ => ⟨S2400000x64, .f32⟩
  | .hbm, ⟨49, _⟩ => ⟨S2400000x64, .f32⟩
  | .hbm, ⟨50, _⟩ => ⟨S_, .f32⟩
  | .hbm, ⟨51, _⟩ => ⟨S150000x64, .f32⟩
  | .hbm, ⟨52, _⟩ => ⟨S2400000x1, .i32⟩
  | .hbm, ⟨53, _⟩ => ⟨S150000x64, .f32⟩
  | .hbm, ⟨54, _⟩ => ⟨S150000x64, .f32⟩
  | .hbm, ⟨55, _⟩ => ⟨S100000x64, .f32⟩
  | .hbm, ⟨56, _⟩ => ⟨S50000x64, .f32⟩
  | .hbm, ⟨57, _⟩ => ⟨S100000x1x64, .f32⟩
  | .hbm, ⟨58, _⟩ => ⟨S50000x1x64, .f32⟩
  | .hbm, ⟨59, _⟩ => ⟨S16384x1x1, .f32⟩
  | .hbm, ⟨60, _⟩ => ⟨S16384, .f32⟩
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S6000x64, .f32⟩
  | .local _ .vmem, ⟨5, _⟩ => ⟨S6000x64, .f32⟩
  | .local _ .vmem, ⟨6, _⟩ => ⟨S6000x64, .f32⟩
  | .local _ .vmem, ⟨7, _⟩ => ⟨S6000x64, .f32⟩
  | .local _ .vmem, ⟨8, _⟩ => ⟨S6000x64, .f32⟩
  | .local _ .vmem, ⟨9, _⟩ => ⟨S6000x64, .f32⟩
  | .local _ .vmem, ⟨10, _⟩ => ⟨S1x1x64, .f32⟩
  | .local _ .vmem, ⟨11, _⟩ => ⟨S1x1x64, .f32⟩
  | .local _ .vmem, ⟨12, _⟩ => ⟨S1x1x64, .f32⟩
  | .local _ .vmem, ⟨13, _⟩ => ⟨S1x1x64, .f32⟩
  | .local _ .vmem, ⟨14, _⟩ => ⟨S1x1x1, .f32⟩
  | .local _ .vmem, ⟨15, _⟩ => ⟨S1x1x1, .f32⟩
  | .local _ .smem, ⟨0, _⟩ => ⟨S16384, .i32⟩
  | .local _ .smem, ⟨1, _⟩ => ⟨S16384, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16384], ![false]⟩

abbrev pre1 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S16384.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S16384) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S100000x64_S50000x64_S150000x64_d0 : Shape.Concatenates [S100000x64, S50000x64] S150000x64 0
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  slices_S150000x64_S100000x64_0_0 : S150000x64.Slices ![0, 0] S100000x64
  slices_S150000x64_S50000x64_100000_0 : S150000x64.Slices ![100000, 0] S50000x64
  shapeCasts_S100000x64_S100000x1x64 : S100000x64.ShapeCasts S100000x1x64
  shapeCasts_S50000x64_S50000x1x64 : S50000x64.ShapeCasts S50000x1x64
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  reduces_S1x1x64_S1x1 : S1x1x64.Reduces [2] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S16384x1x1_S16384 : S16384x1x1.ShapeCasts S16384
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S150000x64.size a
  hwx0_1 : ∀ i : grid0.Coords, EltTy.bits .f32 = 32 ∨ (Rect.block (s := S150000x64) S6000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x64.size a ≤ S150000x64.size a
  hwx0_2 : ∀ i : grid0.Coords, EltTy.bits .f32 = 32 ∨ (Rect.block (s := S150000x64) S6000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x64.size a ≤ S150000x64.size a
  hwx0_3 : ∀ i : grid0.Coords, EltTy.bits .f32 = 32 ∨ (Rect.block (s := S150000x64) S6000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x64.size a ≤ S150000x64.size a
  hwx0_4 : ∀ i : grid0.Coords, EltTy.bits .f32 = 32 ∨ (Rect.block (s := S150000x64) S6000x64.size (cc0_transform_4 i) (hinb0_4 i)).WholeWords (EltTy.packing .f32)
  hrank1 : 0 < grid1.rank
  k1_off1_inb : ∀ i : grid1.Coords, ∀ a, (k1_off1 i) a + S1.size a ≤ S16384.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S16384x1x1.size a
  hwx1_2 : ∀ i : grid1.Coords, EltTy.bits .f32 = 32 ∨ (Rect.block (s := S16384x1x1) S1x1x1.size (cc1_transform_2 i) (hinb1_2 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf

abbrev win0_0 : Pipeline.Window sig grid0 :=
  Pipeline.Window.ofSpec (Memref.whole main_v0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S6000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S6000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S6000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_v43) S1x1x64.size reads1_0 false false 2 stage1_0 sem1_0 nbuf1_0 hstage1_0

abbrev spec1_1 : Pipeline.WinSpec sig grid1.rank :=
  Pipeline.WinSpec.ofSpec (Memref.whole main_v44) S1x1x64.size reads1_1 false false 2 stage1_1 sem1_1 nbuf1_1 hstage1_1

abbrev spec1_2 : Pipeline.WinSpec sig grid1.rank :=
  Pipeline.WinSpec.ofSpec (Memref.whole main_v45) S1x1x1.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 k1_off1_inb numel1_S1 pf | 1 => cc1_transform_1 k1_off1_inb numel1_S1 pf | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | ⟨_ + 3, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x64.size a ≤ S100000x1x64.size a), EltTy.bits .f32 = 32 ∨ (Rect.block (s := S100000x1x64) S1x1x64.size (cc1_transform_0 k1_off1_inb numel1_S1 pf i) h).WholeWords (EltTy.packing .f32)) ∧
  (∀ i : grid1.Coords, ∃ h : (∀ a, (cc1_transform_1 k1_off1_inb numel1_S1 pf i a + 1) * S1x1x64.size a ≤ S50000x1x64.size a), EltTy.bits .f32 = 32 ∨ (Rect.block (s := S50000x1x64) S1x1x64.size (cc1_transform_1 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2 i).elim fun h _ => h a | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2 i).elim fun _ h => h | 2 => hwx1_2 | ⟨_ + 3, h⟩ => absurd h (Nat.not_lt.2 (Nat.le_add_left _ _))

class Facts : Prop extends Facts₀ where
  harr1 : ∀ w, (spec1 w).arr.IsWhole

variable [Facts]
-- ==== ReferenceIdeal.lean ====
abbrev S100000x64 : Shape := ⟨2, ![100000, 64]⟩
abbrev S50000x64 : Shape := ⟨2, ![50000, 64]⟩
abbrev S2400000 : Shape := ⟨1, ![2400000]⟩
abbrev S16384 : Shape := ⟨1, ![16384]⟩
abbrev S150000x64 : Shape := ⟨2, ![150000, 64]⟩
abbrev S_ : Shape := ⟨0, ![]⟩
abbrev S2400000x1 : Shape := ⟨2, ![2400000, 1]⟩
abbrev S2400000x64 : Shape := ⟨2, ![2400000, 64]⟩
abbrev S16384x1 : Shape := ⟨2, ![16384, 1]⟩
abbrev S16384x64 : Shape := ⟨2, ![16384, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2400000, .i32⟩
  | .hbm, ⟨3, _⟩ => ⟨S2400000, .i32⟩
  | .hbm, ⟨4, _⟩ => ⟨S2400000, .f32⟩
  | .hbm, ⟨5, _⟩ => ⟨S16384, .i32⟩
  | .hbm, ⟨6, _⟩ => ⟨S16384, .i32⟩
  | .hbm, ⟨7, _⟩ => ⟨S150000x64, .f32⟩
  | .hbm, ⟨8, _⟩ => ⟨S_, .i32⟩
  | .hbm, ⟨9, _⟩ => ⟨S2400000, .i32⟩
  | .hbm, ⟨10, _⟩ => ⟨S2400000, .i1⟩
  | .hbm, ⟨11, _⟩ => ⟨S_, .i32⟩
  | .hbm, ⟨12, _⟩ => ⟨S2400000, .i32⟩
  | .hbm, ⟨13, _⟩ => ⟨S2400000, .i32⟩
  | .hbm, ⟨14, _⟩ => ⟨S2400000, .i32⟩
  | .hbm, ⟨15, _⟩ => ⟨S2400000x1, .i32⟩
  | .hbm, ⟨16, _⟩ => ⟨S2400000x64, .f32⟩
  | .hbm, ⟨17, _⟩ => ⟨S2400000x1, .f32⟩
  | .hbm, ⟨18, _⟩ => ⟨S2400000x64, .f32⟩
  | .hbm, ⟨19, _⟩ => ⟨S2400000x64, .f32⟩
  | .hbm, ⟨20, _⟩ => ⟨S_, .f32⟩
  | .hbm, ⟨21, _⟩ => ⟨S150000x64, .f32⟩
  | .hbm, ⟨22, _⟩ => ⟨S2400000x1, .i32⟩
  | .hbm, ⟨23, _⟩ => ⟨S150000x64, .f32⟩
  | .hbm, ⟨24, _⟩ => ⟨S150000x64, .f32⟩
  | .hbm, ⟨25, _⟩ => ⟨S_, .i32⟩
  | .hbm, ⟨26, _⟩ => ⟨S2400000, .i32⟩
  | .hbm, ⟨27, _⟩ => ⟨S2400000, .i1⟩
  | .hbm, ⟨28, _⟩ => ⟨S_, .i32⟩
  | .hbm, ⟨29, _⟩ => ⟨S2400000, .i32⟩
  | .hbm, ⟨30, _⟩ => ⟨S2400000, .i32⟩
  | .hbm, ⟨31, _⟩ => ⟨S2400000, .i32⟩
  | .hbm, ⟨32, _⟩ => ⟨S2400000x1, .i32⟩
  | .hbm, ⟨33, _⟩ => ⟨S2400000x64, .f32⟩
  | .hbm, ⟨34, _⟩ => ⟨S2400000x1, .f32⟩
  | .hbm, ⟨35, _⟩ => ⟨S2400000x64, .f32⟩
  | .hbm, ⟨36, _⟩ => ⟨S2400000x64, .f32⟩
  | .hbm, ⟨37, _⟩ => ⟨S_, .f32⟩
  | .hbm, ⟨38, _⟩ => ⟨S150000x64, .f32⟩
  | .hbm, ⟨39, _⟩ => ⟨S2400000x1, .i32⟩
  | .hbm, ⟨40, _⟩ => ⟨S150000x64, .f32⟩
  | .hbm, ⟨41, _⟩ => ⟨S150000x64, .f32⟩
  | .hbm, ⟨42, _⟩ => ⟨S_, .i32⟩
  | .hbm, ⟨43, _⟩ => ⟨S2400000, .i32⟩
  | .hbm, ⟨44, _⟩ => ⟨S2400000, .i1⟩
  | .hbm, ⟨45, _⟩ => ⟨S_, .i32⟩
  | .hbm, ⟨46, _⟩ => ⟨S2400000, .i32⟩
  | .hbm, ⟨47, _⟩ => ⟨S2400000, .i32⟩
  | .hbm, ⟨48, _⟩ => ⟨S2400000, .i32⟩
  | .hbm, ⟨49, _⟩ => ⟨S2400000x1, .i32⟩
  | .hbm, ⟨50, _⟩ => ⟨S2400000x64, .f32⟩
  | .hbm, ⟨51, _⟩ => ⟨S2400000x1, .f32⟩
  | .hbm, ⟨52, _⟩ => ⟨S2400000x64, .f32⟩
  | .hbm, ⟨53, _⟩ => ⟨S2400000x64, .f32⟩
  | .hbm, ⟨54, _⟩ => ⟨S_, .f32⟩
  | .hbm, ⟨55, _⟩ => ⟨S150000x64, .f32⟩
  | .hbm, ⟨56, _⟩ => ⟨S2400000x1, .i32⟩
  | .hbm, ⟨57, _⟩ => ⟨S150000x64, .f32⟩
  | .hbm, ⟨58, _⟩ => ⟨S150000x64, .f32⟩
  | .hbm, ⟨59, _⟩ => ⟨S_, .f32⟩
  | .hbm, ⟨60, _⟩ => ⟨S150000x64, .f32⟩
  | .hbm, ⟨61, _⟩ => ⟨S150000x64, .f32⟩
  | .hbm, ⟨62, _⟩ => ⟨S100000x64, .f32⟩
  | .hbm, ⟨63, _⟩ => ⟨S50000x64, .f32⟩
  | .hbm, ⟨64, _⟩ => ⟨S_, .i32⟩
  | .hbm, ⟨65, _⟩ => ⟨S16384, .i32⟩
  | .hbm, ⟨66, _⟩ => ⟨S16384, .i1⟩
  | .hbm, ⟨67, _⟩ => ⟨S_, .i32⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S16384x1, .i32⟩
  | .hbm, ⟨72, _⟩ => ⟨S16384x64, .f32⟩
  | .hbm, ⟨73, _⟩ => ⟨S_, .i32⟩
  | .hbm, ⟨74, _⟩ => ⟨S16384, .i32⟩
  | .hbm, ⟨75, _⟩ => ⟨S16384, .i1⟩
  | .hbm, ⟨76, _⟩ => ⟨S_, .i32⟩
  | .hbm, ⟨77, _⟩ => ⟨S16384, .i32⟩
  | .hbm, ⟨78, _⟩ => ⟨S16384, .i32⟩
  | .hbm, ⟨79, _⟩ => ⟨S16384, .i32⟩
  | .hbm, ⟨80, _⟩ => ⟨S16384x1, .i32⟩
  | .hbm, ⟨81, _⟩ => ⟨S16384x64, .f32⟩
  | .hbm, ⟨82, _⟩ => ⟨S16384x64, .f32⟩
  | .hbm, ⟨83, _⟩ => ⟨S_, .f32⟩
  | .hbm, ⟨84, _⟩ => ⟨S16384, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  gather_S100000x64_S16384x1_S16384x64_1_0_n_n_0_1_164_wf : GatherDims.WF S100000x64 S16384x1 S16384x64 [1] [0] [] [0] [] 1 ![1, 64]
  gather_S50000x64_S16384x1_S16384x64_1_0_n_n_0_1_164_wf : GatherDims.WF S50000x64 S16384x1 S16384x64 [1] [0] [] [0] [] 1 ![1, 64]

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S50000x64_S16384x1_S16384x64_1_0_n_n_0_1_164 : GatherDims S50000x64 S16384x1 S16384x64 where
  offsetDims := [1]
  collapsedSliceDims := [0]
  operandBatchingDims := []
  startIndicesBatchingDims := []
  startIndexMap := [0]
  indexVectorDim := 1
  sliceSizes := ![1, 64]
  wf := gather_S50000x64_S16384x1_S16384x64_1_0_n_n_0_1_164_wf

class Facts : Prop extends Facts₀ where

variable [Facts]
-- ==== Proof.BitsBodies.lean ====
/-
  The two kernel bodies of the word-level program, each at a parameter: the contents `V` of the unscoped buffers when
  its region is entered and, for the call whose index maps read the two index tables, any admissible contents `a` of
  those tables. Region 0 (the mean pool) reads one block of 6000 rows from each of the four layer tables and stores
  one block: the sum of the four, in order, times one quarter. Region 1 (the gathered dot product) reads one row of
  the user table and one row of the item table, the rows the tables name at the point, and stores one number: the
  sum over the 64 columns of their products. Per region: a window's block at a point read off its array, what the
  body leaves in its output block as a function of the input blocks, the body's triple, the pipeline's proof data
  (inputs left in place, the output at that function, nothing owed) and the body obligation at every point.
-/
import proofs.«412117_j10952166604876_2_alg».proof.Proof.Gen.Kernel.Launch
import proofs.«412117_j10952166604876_2_alg».proof.Proof.Gen.Kernel.Skeleton
import proofs.«412117_j10952166604876_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Bodies

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the mean pool -/

/-- Window `w`'s block at point `t`: rows `6000 t … 6000 t + 5999` of its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s
    and whose body leaves the block in place. One statement per input window (the window is a literal). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The whole 6000 × 64 block: the one rectangle every access of the body goes through. -/
abbrev whole0 : Rect S6000x64 := Rect.unit (s := S6000x64) ![0, 0] S6000x64.size inb_S6000x64_S6000x64_0_0

/-- What the body leaves in the output block, from the four input blocks: its one store, of the whole block. -/
def pooled (x0 x1 x2 x3 : Vec F S6000x64 .f32) : Vec F S6000x64 .f32 :=
  View.canon [⟨whole0, k0_pay1 (View.ld x0 whole0) (View.ld x1 whole0) (View.ld x2 whole0) (View.ld x3 whole0)⟩]

/-- The one store covers the block. -/
theorem pooled_cover (p0 : Vec F S6000x64 .f32) (y : S6000x64.Idx) :
    ∃ pc ∈ ([⟨whole0, p0⟩] : List (View.Piece (Elt F) S6000x64 .f32)), y ∈ pc.1.set :=
  View.cover_of_tiled [⟨whole0, p0⟩] S6000x64.size (by rfl) y

set_option maxHeartbeats 1000000 in
/-- The body on whole staging memrefs, the four inputs' at read contents and the output's at anything, runs to the
    continuation with the inputs' as they were and the output's at `pooled` of them. -/
theorem pool_body (c : Dev nD) (E : Set ℕ) (i : grid0.Coords)
    (arg1 : Memref sig .tc .vmem S6000x64 .f32) (harg1 : arg1.IsWhole) (arg2 : Memref sig .tc .vmem S6000x64 .f32) (harg2 : arg2.IsWhole)
    (arg3 : Memref sig .tc .vmem S6000x64 .f32) (harg3 : arg3.IsWhole) (arg4 : Memref sig .tc .vmem S6000x64 .f32) (harg4 : arg4.IsWhole)
    (arg5 : Memref sig .tc .vmem S6000x64 .f32) (harg5 : arg5.IsWhole)
    (x0 x1 x2 x3 : Vec F S6000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (pooled x0 x1 x2 x3)) -∗ K ⟨⟩))
      ⊢ wp frame (wpE (defs₀ (F := F)) Variants.none c none) E (cc0__meanpool_kernel i arg1 harg1 arg2 harg2 arg3 harg3 arg4 harg4 arg5 harg5) K := by
  simp only [cc0__meanpool_kernel_eq_skeleton]; unfold cc0__meanpool_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (pooled_cover _)

/-- The proof data of the pool's pipeline on core `c`: the arrays as the region finds them; after the body at point
    `t` each input's buffer at its block and the output's at `pooled` of the four; the scoped rest and the generator
    register pass through; nothing owed; full shares. -/
def poolDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => pooled (blk0 V c 0 t) (blk0 V c 1 t) (blk0 V c 2 t) (blk0 V c 3 t)
  Φ _ := Pipeline.ΦA spec0 c
  q _ := fullShare
  owed _ := 0

theorem poolDat_A (c : Dev nD) (w : Fin cfg0.W) : (poolDat V c).A w = V c (Pipeline.arrRef spec0 w) := by
  dsimp only [poolDat]

theorem poolDat_after0 (c : Dev nD) (t : Fin cfg0.N) : (poolDat V c).after 0 t = blk0 V c 0 t := by dsimp only [poolDat]
theorem poolDat_after1 (c : Dev nD) (t : Fin cfg0.N) : (poolDat V c).after 1 t = blk0 V c 1 t := by dsimp only [poolDat]
theorem poolDat_after2 (c : Dev nD) (t : Fin cfg0.N) : (poolDat V c).after 2 t = blk0 V c 2 t := by dsimp only [poolDat]
theorem poolDat_after3 (c : Dev nD) (t : Fin cfg0.N) : (poolDat V c).after 3 t = blk0 V c 3 t := by dsimp only [poolDat]
theorem poolDat_after4 (c : Dev nD) (t : Fin cfg0.N) :
    (poolDat V c).after 4 t = pooled (blk0 V c 0 t) (blk0 V c 1 t) (blk0 V c 2 t) (blk0 V c 3 t) := by dsimp only [poolDat]

theorem poolDat_before0 (c : Dev nD) (t : Fin cfg0.N) (d) : (poolDat V c).before 0 t d = blk0 V c 0 t :=
  before0_0_of V (poolDat V c) (poolDat_A V c 0) (poolDat_after0 V c) t d
theorem poolDat_before1 (c : Dev nD) (t : Fin cfg0.N) (d) : (poolDat V c).before 1 t d = blk0 V c 1 t :=
  before0_1_of V (poolDat V c) (poolDat_A V c 1) (poolDat_after1 V c) t d
theorem poolDat_before2 (c : Dev nD) (t : Fin cfg0.N) (d) : (poolDat V c).before 2 t d = blk0 V c 2 t :=
  before0_2_of V (poolDat V c) (poolDat_A V c 2) (poolDat_after2 V c) t d
theorem poolDat_before3 (c : Dev nD) (t : Fin cfg0.N) (d) : (poolDat V c).before 3 t d = blk0 V c 3 t :=
  before0_3_of V (poolDat V c) (poolDat_A V c 3) (poolDat_after3 V c) t d

/-- What the pool's body is called with at point `t`, the windows one by one, -/
def poolPre (c : Dev nD) (t : Fin cfg0.N) : sProp 𝕄 :=
  iprop((poolDat V c).Φ t.castSucc ∗ (poolDat V c).owesAt () t.castSucc
    ∗ (∃ d, owns (c : Thread nD τ) (st0_0 t) fullShare ((poolDat V c).before 0 t d))
    ∗ (∃ d, owns (c : Thread nD τ) (st0_1 t) fullShare ((poolDat V c).before 1 t d))
    ∗ (∃ d, owns (c : Thread nD τ) (st0_2 t) fullShare ((poolDat V c).before 2 t d))
    ∗ (∃ d, owns (c : Thread nD τ) (st0_3 t) fullShare ((poolDat V c).before 3 t d))
    ∗ (∃ d, owns (c : Thread nD τ) (st0_4 t) fullShare ((poolDat V c).before 4 t d)))

/-- and what it returns. -/
def poolPost (c : Dev nD) (t : Fin cfg0.N) : sProp 𝕄 :=
  iprop((poolDat V c).Φ t.succ ∗ (poolDat V c).owesAt () t.succ
    ∗ owns (c : Thread nD τ) (st0_0 t) fullShare ((poolDat V c).after 0 t)
    ∗ owns (c : Thread nD τ) (st0_1 t) fullShare ((poolDat V c).after 1 t)
    ∗ owns (c : Thread nD τ) (st0_2 t) fullShare ((poolDat V c).after 2 t)
    ∗ owns (c : Thread nD τ) (st0_3 t) fullShare ((poolDat V c).after 3 t)
    ∗ owns (c : Thread nD τ) (st0_4 t) fullShare ((poolDat V c).after 4 t))

/-- The pool's body at any point: the inputs' memrefs hold their blocks, so `pool_body` applies; the invariant and the
    core's dues pass through unread. -/
theorem pool_sound (c : Dev nD) (t : Fin cfg0.N) :
    poolPre V c t ⊢ wp frame (wpE (defs₀ (F := F)) Variants.none c none) Set.univ (bodyAt0 t) (fun _ => poolPost V c t) := by
  unfold poolPre poolPost bodyAt0
  simp only [poolDat_before0, poolDat_before1, poolDat_before2, poolDat_before3]
  rw [show (poolDat V c).Φ t.succ = (poolDat V c).Φ t.castSucc from rfl,
    show (poolDat V c).owesAt () t.succ = (poolDat V c).owesAt () t.castSucc from rfl,
    poolDat_after0, poolDat_after1, poolDat_after2, poolDat_after3, poolDat_after4]
  iintro ⟨HΦ, Ho, ⟨%d0, H0⟩, ⟨%d1, H1⟩, ⟨%d2, H2⟩, ⟨%d3, H3⟩, ⟨%d4, H4⟩⟩
  iapply (pool_body c Set.univ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pool's body obligation, at every point. -/
theorem pool_obligation (c : Dev nD) : BodyObligation (poolDat (F := F) V c) (defs₀ (F := F)) Variants.none () Set.univ := fun t => by
  rw [bigSep_W0, bigSep_W0]
  exact pool_sound V c t

/-! # Region 1: the gathered dot product, at any admissible contents `a` of the two index tables -/

section Tables

variable (a : (pcfg1 (F := F)).Adm)

/-- Window `w`'s block at point `t` read off its array as the region finds it: for the two row windows, the row the
    window's table names at `t`. -/
def blk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem before1_0_of {c : Dev nD} (dat : Dat τ (Elt F) Unit ℕ (UR sig nD τ) ℕ (cfg1 a) c) (hA : dat.A 0 = V c (Pipeline.arrRef spec1 0))
    (hafter : ∀ t, dat.after 0 t = blk1 V a c 0 t) (t : Fin (cfg1 a).N) (d) : dat.before 0 t d = blk1 V a c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = blk1 V a c 1 t) (t : Fin (cfg1 a).N) (d) : dat.before 1 t d = blk1 V a c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- One row, 1 × 1 × 64, and the one output number, 1 × 1 × 1: the rectangles the body's accesses go through. -/
abbrev row1 : Rect S1x1x64 := Rect.unit (s := S1x1x64) ![0, 0, 0] S1x1x64.size inb_S1x1x64_S1x1x64_0_0_0
abbrev one1 : Rect S1x1x1 := Rect.unit (s := S1x1x1) ![0, 0, 0] S1x1x1.size inb_S1x1x1_S1x1x1_0_0_0

/-- What the body leaves in the output block, from the two rows: its one store. -/
def dotted (x0 x1 : Vec F S1x1x64 .f32) : Vec F S1x1x1 .f32 :=
  View.canon [⟨one1, k1_pay1 (View.ld x0 row1) (View.ld x1 row1)⟩]

theorem dotted_cover (p0 : Vec F S1x1x1 .f32) (y : S1x1x1.Idx) :
    ∃ pc ∈ ([⟨one1, p0⟩] : List (View.Piece (Elt F) S1x1x1 .f32)), y ∈ pc.1.set :=
  View.cover_of_tiled [⟨one1, p0⟩] S1x1x1.size (by rfl) y

set_option maxHeartbeats 1000000 in
/-- The body on whole staging memrefs (it never touches the two tables it is handed): the rows' at read contents and
    the output's at anything, to the rows' as they were and the output's at `dotted` of them. -/
theorem dot_body (c : Dev nD) (E : Set ℕ) (i : grid1.Coords)
    (arg1 : Memref sig .tc .smem S16384 .i32) (harg1 : arg1.IsWhole) (arg2 : Memref sig .tc .smem S16384 .i32) (harg2 : arg2.IsWhole)
    (arg3 : Memref sig .tc .vmem S1x1x64 .f32) (harg3 : arg3.IsWhole) (arg4 : Memref sig .tc .vmem S1x1x64 .f32) (harg4 : arg4.IsWhole)
    (arg5 : Memref sig .tc .vmem S1x1x1 .f32) (harg5 : arg5.IsWhole)
    (x0 x1 : Vec F S1x1x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (dotted x0 x1)) -∗ K ⟨⟩))
      ⊢ wp frame (wpE (defs₀ (F := F)) Variants.none c none) E (cc1__gather_dot_kernel i arg1 harg1 arg2 harg2 arg3 harg3 arg4 harg4 arg5 harg5) K := by
  simp only [cc1__gather_dot_kernel_eq_skeleton]; unfold cc1__gather_dot_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (dotted_cover _)

/-- Each window's current staging memref at point `t`, as the pipeline passes it, and the body as it is called there. -/
abbrev st1_0 (t : Fin (cfg1 a).N) : Memref sig .tc .vmem S1x1x64 .f32 := spec1_0.stage ((cfg1 a).slots t 0)
abbrev st1_1 (t : Fin (cfg1 a).N) : Memref sig .tc .vmem S1x1x64 .f32 := spec1_1.stage ((cfg1 a).slots t 1)
abbrev st1_2 (t : Fin (cfg1 a).N) : Memref sig .tc .vmem S1x1x1 .f32 := spec1_2.stage ((cfg1 a).slots t 2)
abbrev bodyAt1 (t : Fin (cfg1 a).N) : Prog (TpuEff nD τ sig (Elt F) Λ₀ .tc) PUnit :=
  cc1__gather_dot_kernel (grid1.coords t) (Memref.whole main_arg5) (Memref.isWhole_whole _) (Memref.whole main_arg6) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))

/-- The two tables held whole at the admissible contents: they ride the region's invariant untouched. -/
abbrev tablesHeld (c : Dev nD) : sProp 𝕄 :=
  Pipeline.prefHeld (Ix := Unit) (Name := ℕ) (U := UR sig nD τ) (Lvl := ℕ) (pcfg1 (F := F)).pre c (fun _ => fullShare) a.1

/-- The proof data of the dot product's pipeline on core `c`: the arrays as the region finds them; after the body at
    point `t` each row window's buffer at its row and the output's at `dotted` of the two; the scoped rest, the generator
    register and the two tables pass through; nothing owed; full shares. -/
def dotDat (c : Dev nD) : Dat τ (Elt F) Unit ℕ (UR sig nD τ) ℕ (cfg1 a) c where
  A w := V c (Pipeline.arrRef spec1 w)
  after w t := match w with
    | ⟨0, _⟩ => blk1 V a c 0 t
    | ⟨1, _⟩ => blk1 V a c 1 t
    | ⟨2, _⟩ => dotted (blk1 V a c 0 t) (blk1 V a c 1 t)
  Φ _ := iprop(Pipeline.ΦA spec1 c ∗ tablesHeld a c)
  q _ := fullShare
  owed _ := 0

theorem dotDat_A (c : Dev nD) (w : Fin (cfg1 a).W) : (dotDat V a c).A w = V c (Pipeline.arrRef spec1 w) := by
  dsimp only [dotDat]

theorem dotDat_after0 (c : Dev nD) (t : Fin (cfg1 a).N) : (dotDat V a c).after 0 t = blk1 V a c 0 t := by dsimp only [dotDat]; try rfl
theorem dotDat_after1 (c : Dev nD) (t : Fin (cfg1 a).N) : (dotDat V a c).after 1 t = blk1 V a c 1 t := by dsimp only [dotDat]; try rfl
theorem dotDat_after2 (c : Dev nD) (t : Fin (cfg1 a).N) :
    (dotDat V a c).after 2 t = dotted (blk1 V a c 0 t) (blk1 V a c 1 t) := by dsimp only [dotDat]; try rfl

theorem dotDat_before0 (c : Dev nD) (t : Fin (cfg1 a).N) (d) : (dotDat V a c).before 0 t d = blk1 V a c 0 t :=
  before1_0_of V a (dotDat V a c) (dotDat_A V a c 0) (dotDat_after0 V a c) t d
theorem dotDat_before1 (c : Dev nD) (t : Fin (cfg1 a).N) (d) : (dotDat V a c).before 1 t d = blk1 V a c 1 t :=
  before1_1_of V a (dotDat V a c) (dotDat_A V a c 1) (dotDat_after1 V a c) t d

def dotPre (c : Dev nD) (t : Fin (cfg1 a).N) : sProp 𝕄 :=
  iprop((dotDat V a c).Φ t.castSucc ∗ (dotDat V a c).owesAt () t.castSucc
    ∗ (∃ d, owns (c : Thread nD τ) (st1_0 a t) fullShare ((dotDat V a c).before 0 t d))
    ∗ (∃ d, owns (c : Thread nD τ) (st1_1 a t) fullShare ((dotDat V a c).before 1 t d))
    ∗ (∃ d, owns (c : Thread nD τ) (st1_2 a t) fullShare ((dotDat V a c).before 2 t d)))

def dotPost (c : Dev nD) (t : Fin (cfg1 a).N) : sProp 𝕄 :=
  iprop((dotDat V a c).Φ t.succ ∗ (dotDat V a c).owesAt () t.succ
    ∗ owns (c : Thread nD τ) (st1_0 a t) fullShare ((dotDat V a c).after 0 t)
    ∗ owns (c : Thread nD τ) (st1_1 a t) fullShare ((dotDat V a c).after 1 t)
    ∗ owns (c : Thread nD τ) (st1_2 a t) fullShare ((dotDat V a c).after 2 t))

theorem dot_sound (c : Dev nD) (t : Fin (cfg1 a).N) :
    dotPre V a c t ⊢ wp frame (wpE (defs₀ (F := F)) Variants.none c none) Set.univ (bodyAt1 a t) (fun _ => dotPost V a c t) := by
  unfold dotPre dotPost bodyAt1
  simp only [dotDat_before0, dotDat_before1]
  rw [show (dotDat V a c).Φ t.succ = (dotDat V a c).Φ t.castSucc from rfl,
    show (dotDat V a c).owesAt () t.succ = (dotDat V a c).owesAt () t.castSucc from rfl,
    dotDat_after0, dotDat_after1, dotDat_after2]
  iintro ⟨HΦ, Ho, ⟨%d0, H0⟩, ⟨%d1, H1⟩, ⟨%d2, H2⟩⟩
  iapply (dot_body c Set.univ _ _ _ _ _ _ _ _ _ _ _ (blk1 V a c 0 t) (blk1 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem dot_obligation (c : Dev nD) : BodyObligation (dotDat (F := F) V a c) (defs₀ (F := F)) Variants.none () Set.univ := fun t => by
  rw [bigSep_W1, bigSep_W1]
  exact dot_sound V a c t

end Tables

end Cert.Kernel.Bodies

end
-- ==== Proof.BitsRun.lean ====
/-
  The run of the word-level program from the launch to the return. Its @main is five items: the host stretch that
  builds the four layer tables (the concatenated embeddings and three rounds of gather, scale and scatter-add), the
  mean-pool region, the host stretch that cuts the pooled table into its user and item halves and gives each a unit
  middle axis, the gathered-dot-product region, and the final reshape. Named here: the contents of the unscoped
  buffers at each of the six boundaries (a fold from the launch memory: a host stretch applies its operations, a
  region overwrites its output array with what its write-backs leave), the two index tables as read off the launch
  memory (no item writes them), every pipeline's proof data at its region's entry contents, each item as a segment
  over the state "every unscoped buffer at the boundary's contents, the generator register somewhere, nothing
  owed", and the launch: under the side condition that every table entry names a row of its table, every weakly fair
  execution terminates and every unscoped buffer ends at the last boundary's contents.
-/
import proofs.«412117_j10952166604876_2_alg».proof.Proof.BitsBodies
import proofs.«412117_j10952166604876_2_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Bodies

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two index tables -/

/-- The tables' contents at launch (the program runs on one device). -/
def tbl : pre1.Contents (Elt F) := fun j => m (((0 : Dev nD) : Thread nD τ).loc (pre1.ref j))

/-- The pipeline's side condition of the tables: every entry of the user table names a row of the 100000-row table,
    every entry of the item table a row of the 50000-row table. -/
abbrev Ok : Prop := ok1 (F := F) (tbl m)

/-- The tables as admissible contents. -/
abbrev adm1 (hO : Ok m) : (pcfg1 (F := F)).Adm := ⟨tbl m, hO⟩

/-- Every pipeline's admissible tables: the pool has none. -/
def adm (hO : Ok m) : (p : Fin 2) → (pcfgs (F := F) p).Adm
  | ⟨0, _⟩ => cfg0.toPCfg_adm
  | ⟨1, _⟩ => adm1 m hO

/-! ## The buffers' contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the pool: its output array at what its write-backs leave, every other buffer as entered. -/
def W2 (c : Dev nD) : Valuation τ sig (Elt F) :=
  Pipeline.withArrays spec0 c (W1 m c) fun w => (poolDat (V1 m) c).arrAt w cfg0.N
theorem W2_arr (c : Dev nD) (w : Fin cfg0.W) :
    W2 m c (Proc.devRef .tc (Pipeline.arrRef spec0 w)) = (poolDat (V1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem pool_final (c : Dev nD) (w : Fin cfg0.W) : (poolDat (V1 m) c).arrAt w cfg0.N = V2 m c (Pipeline.arrRef spec0 w) :=
  (W2_arr m c w).symm
theorem pool_rest (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the dot product: its output array at what its write-backs leave, every other buffer as entered. -/
def W4 (hO : Ok m) (c : Dev nD) : Valuation τ sig (Elt F) :=
  Pipeline.withArrays spec1 c (W3 m c) fun w => (dotDat (V3 m) (adm1 m hO) c).arrAt w (cfg1 (adm1 m hO)).N
theorem W4_arr (hO : Ok m) (c : Dev nD) (w : Fin (cfg1 (adm1 m hO)).W) :
    W4 m hO c (Proc.devRef .tc (Pipeline.arrRef spec1 w)) = (dotDat (V3 m) (adm1 m hO) c).arrAt w (cfg1 (adm1 m hO)).N := by
  unfold W4; exact Pipeline.withArrays_arr spec1 (launch1 (F := F)).win.arr_inj c _ _ w
theorem W4_of_ne (hO : Ok m) (c : Dev nD) (b : Ref sig .tc) (hb : ∀ w, Pipeline.arrRef spec1 w ≠ b) :
    W4 m hO c (Proc.devRef .tc b) = W3 m c (Proc.devRef .tc b) := by
  unfold W4; exact Pipeline.withArrays_of_ne spec1 c _ _ b hb
abbrev V4 (hO : Ok m) : (c : Dev nD) → (b : Ref sig .tc) → Buf (Elt F) ((c : Thread nD τ).loc b) := fun c b => W4 m hO c b
theorem dot_final (hO : Ok m) (c : Dev nD) (w : Fin (cfg1 (adm1 m hO)).W) :
    (dotDat (V3 m) (adm1 m hO) c).arrAt w (cfg1 (adm1 m hO)).N = V4 m hO c (Pipeline.arrRef spec1 w) :=
  (W4_arr m hO c w).symm
theorem dot_rest (hO : Ok m) (c : Dev nD) : ∀ b, b ∉ Finset.univ.image (Pipeline.arrRef spec1) → V4 m hO c b = V3 m c b :=
  fun b hb => W4_of_ne m hO c b fun w e => hb (Finset.mem_image.mpr ⟨w, Finset.mem_univ _, e⟩)

abbrev W5 (hO : Ok m) : Dev nD → Valuation τ sig (Elt F) := fun c => StableHlo.after hostOps2 (W4 m hO c)

/-! ## A buffer no item writes keeps its launch contents: the arguments, the tables among them -/

/-- Through the first three items a buffer that no host operation writes and that is not the pool's output array holds
    its launch contents. -/
theorem V3_kept (c : Dev nD) (b : Ref sig .tc) (h0 : b ∉ hostOps0_W) (h1 : b ∉ hostOps1_W) (hp : ∀ w, Pipeline.arrRef spec0 w ≠ b) :
    V3 m c b = m ((c : Thread nD τ).loc b) :=
  calc V3 m c b
    _ = W2 m c (Proc.devRef .tc b) := StableHlo.after_of_writes_sub hostOps1 _ hostOps1_writes h1
    _ = W1 m c (Proc.devRef .tc b) := W2_of_ne m c b hp
    _ = W0 m c (Proc.devRef .tc b) := StableHlo.after_of_writes_sub hostOps0 _ hostOps0_writes h0
    _ = m ((c : Thread nD τ).loc b) := rfl

/-- The tables reach the dot product as launched. -/
theorem V3_table (c : Dev nD) (k : Fin 2) : V3 m c (pre1.ref k) = tbl m k := by
  obtain rfl : c = 0 := Subsingleton.elim _ _
  match k with
  | ⟨0, _⟩ => exact V3_kept m 0 main_arg5 (by decide) (by decide) (by decide)
  | ⟨1, _⟩ => exact V3_kept m 0 main_arg6 (by decide) (by decide) (by decide)

/-! ## The proof data family and the thread state -/

/-- Every pipeline's proof data, each at its region's entry contents. -/
def pdats (hO : Ok m) : (p : Fin 2) → (c : Dev nD) → Dat τ (Elt F) Unit ℕ (UR sig nD τ) ℕ (Pipeline.pin (pcfgs (F := F)) (adm m hO) p) c
  | ⟨0, _⟩ => fun c => poolDat (V1 m) c
  | ⟨1, _⟩ => fun c => dotDat (V3 m) (adm1 m hO) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (hO : Ok m) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last state without the dues: every unscoped buffer at the last boundary's contents, the generator register. -/
abbrev Tₙ (hO : Ok m) (c : Dev nD) : sProp 𝕄 := iprop(StableHlo.held (c : Thread nD τ) (Pipeline.ucRefs τ sig) (W5 m hO c) ∗ ∃ r, prngReg c r)

/-- The tables the dot product's region is entered with are the admissible contents. -/
theorem tables_entry (hO : Ok m) (c : Dev nD) : (fun k => V3 m c ((pcfgs (F := F) 1).pre.ref k)) = (adm m hO 1).1 :=
  funext fun k => V3_table m c k

/-! ## The regions as segments -/

set_option backward.isDefEq.respectTransparency.types false in
/-- The pool's region: entered from every unscoped buffer at `W1`, left at `W2`. Its arrays split out of the unscoped
    buffers and put back at the exit contents; the generator register into the invariant and out; nothing owed. -/
def poolReg (hO : Ok m) : Pipeline.RegionSeg (pcfgs (F := F)) (adm m hO) (pdats m hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (pool_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) (adm m hO) (pdats m hO) (launch0 (F := F)).win (launch0 (F := F)).arr_whole c
      ((pdats m hO 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m hO) ((pdats m hO 0 c).share_full fun _ => rfl)
      (V1 m c) (V2 m c) ((pdats m hO 0 c).arrAt · cfg0.N) (pool_final m c) (pool_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The dot product's region: entered from every unscoped buffer at `W3`, left at `W4`. At entry the unscoped buffers
    split three ways — the windows' arrays, the two tables (whole, at the admissible contents), the rest —; the tables
    ride the invariant untouched and rejoin the rest at the exit. -/
def dotReg (hO : Ok m) : Pipeline.RegionSeg (pcfgs (F := F)) (adm m hO) (pdats m hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (dot_obligation (V3 m) (adm1 m hO) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m hO c) ∗ R c)
  X c := iprop(∃ r, prngReg c r)
  Y c := iprop((∃ r, prngReg c r) ∗ tablesHeld (adm1 m hO) c)
  Z c := Pipeline.unscopedRestP (Ix := Unit) (Name := ℕ) (U := UR sig nD τ) (Lvl := ℕ) pre1 spec1 c (V3 m c)
  hentry c := by
    rw [Pipeline.ownSems0_none]
    have hsplit := Pipeline.arrays_of_unscopedBufs (p := 1) (pcfgs (F := F)) (adm m hO) (pdats m hO) (launch1 (F := F)).win (launch1 (F := F)).arr_whole c
      ((pdats m hO 1 c).share_full fun _ => rfl) (V3 m c) fun _ => rfl
    rw [Pipeline.unscopedBufs_held, Pipeline.unscopedRest_split (launch1 (F := F)).pre c (V3 m c), tables_entry m hO c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = iprop(Pipeline.ΦA spec1 c ∗ tablesHeld (adm1 m hO) c) from rfl]; unfold Pipeline.ΦA
    iintro ⟨Hp, Ht, Hr⟩
    isplitr [Ht]
    · isplitl [Hr] <;> iassumption
    · iexact Ht
  hout c := by
    rw [Pipeline.ownSems0_none, show (pdats m hO 1 c).Φ (Fin.last _) = iprop(Pipeline.ΦA spec1 c ∗ tablesHeld (adm1 m hO) c) from rfl]; unfold Pipeline.ΦA
    iintro ⟨⟨Hr, Hp⟩, Ht⟩
    isplitl [Hp Ht]
    · isplitl [Hp] <;> iassumption
    isplitr; · iempintro
    iexact Hr
  hexit c := by
    have hjoin := Pipeline.unscopedBufs_of_arrays (p := 1) (pcfgs (F := F)) (adm m hO) (Ix := Unit) (Name := ℕ) (U := UR sig nD τ) (Lvl := ℕ)
      (launch1 (F := F)).win (launch1 (F := F)).arr_whole c (pdats m hO) ((pdats m hO 1 c).share_full fun _ => rfl)
      (V3 m c) (V4 m hO c) ((pdats m hO 1 c).arrAt · (cfg1 (adm1 m hO)).N) (dot_final m hO c) (dot_rest m hO c)
    rw [Pipeline.unscopedBufs_held, Pipeline.unscopedRest_split (launch1 (F := F)).pre c (V3 m c), tables_entry m hO c] at hjoin
    iintro ⟨Ha, HO, ⟨Hp, Ht⟩, Hrest⟩
    imodintro
    isplitl [Ha Ht Hrest]
    · iapply hjoin; isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## @main as segments, and the launch -/

/-- @main's five items in order. -/
abbrev segs (hO : Ok m) : List (Pipeline.Seg (pcfgs (F := F)) (adm m hO) (pdats m hO) () defs₀ 𝒱₀ L lv) :=
  [ .host (hseg m hO hostOps0 hostOps0_sub hostOps0_fresh (W0 m)),
    .region (poolReg m hO),
    .host (hseg m hO hostOps1 hostOps1_sub hostOps1_fresh (W2 m)),
    .region (dotReg m hO),
    .host (hseg m hO hostOps2 hostOps2_sub hostOps2_fresh (W4 m hO)) ]
/-- @main is the run of the segments. -/
theorem main_run (hO : Ok m) (c : Dev nD) : main (F := F) c = Pipeline.Seg.run (segs m hO) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. At the compiled mesh, from any memory with zero counters whose two index tables name rows of their
    tables: every weakly fair execution of @main terminates, nothing faulting, and every unscoped buffer ends at the
    last boundary's contents `W5`. -/
theorem run_all (hO : Ok m) : θ_run defs (onTc (τ := τ) (main (F := F))) ⟨m, fun _ => 0, ρ⟩
    (fun r => ∀ c : Dev nD, ∀ b ∈ Pipeline.ucRefs τ sig, r.2.mem (((c : Thread nD τ)).1, b) = W5 m hO c b) :=
  Pipeline.θ_run_regions_kit (pcfgs (F := F)) (adm m hO) (pdats m hO) () (cellOf_inj (adm m hO)) emb₁ defs₀ 𝒱₀ L lv m ρ main (segs m hO)
    (fun c Q => by rw [main_run m hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hO)
    (hch := ⟨fun _ => .rfl, fun _ => .rfl, fun _ => .rfl, fun _ => .rfl, fun _ => .rfl, fun c => by
      show iprop(StableHlo.held (c : Thread nD τ) (Pipeline.ucRefs τ sig) (W5 m hO c) ∗ R c) ⊢ _
      iintro ⟨Hh, Hp, Ho⟩
      isplitl [Hh Hp]
      · isplitl [Hh] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m hO c b)
    (hfin := fun c s' => by
      iintro ⟨⟨Hh, -⟩, HSI⟩
      unfold StableHlo.held
      imodintro
      iapply (pointsTo_read_all (Pipeline.ucRefs τ sig) (fun b => (((c : Thread nD τ)).1, b)) (W5 m hO c) s')
      isplitl [Hh] <;> iassumption)
    (hQ := fun s h c => h c)

end Cert.Kernel.Run

end
-- ==== Proof.LibPreDecode.lean ====
/-
  Reading a printed precondition back. The predicate is a conjunction of one-bit scalars, each the "all" of an array
  of comparison bits. A conjunction that is one has both conjuncts one; an "all" that is one has every bit one; the
  bit of `|x| < +∞` being one says that the extended real `x` is a real number; the bit of a signed comparison of a
  word with a constant being one is the inequality between their signed values.
-/
import Idealize.ShloMosaic.Lib.ReduceAll
import Idealize.ShloMosaic.PureOps.Ideal

namespace Cert.PreDecode

open Idealize.ShloMosaic

variable {s u : Shape} {ax : List (Fin s.rank)}

/-- The shape of a scalar has exactly one index. -/
instance scalarIdxSubsingleton : Subsingleton (⟨0, ![]⟩ : Shape).Idx := ⟨fun _ _ => funext fun d => d.elim0⟩

/-- If the elementwise `and` of two one-bit arrays is one everywhere, the first array is one everywhere. -/
theorem andi_left {a b : IVec s 1} (h : andi a b = fun _ => 1#1) : a = fun _ => 1#1 :=
  funext fun i => (IntOp.andi_eq_one.1 (congrFun h i)).1

/-- If the elementwise `and` of two one-bit arrays is one everywhere, the second array is one everywhere. -/
theorem andi_right {a b : IVec s 1} (h : andi a b = fun _ => 1#1) : b = fun _ => 1#1 :=
  funext fun i => (IntOp.andi_eq_one.1 (congrFun h i)).2

/-- An "all" (a reduction by `and` over every axis, down to a scalar) that is one: every bit reduced is one. -/
theorem all_of_reduce (p : IVec s 1) (init : IVec u 1) (hr : s.ReducesTo ax ⟨0, ![]⟩) (hu : 0 < u.numel)
    (h : Host.reduce IntOp.andi p init hr hu = fun _ => 1#1) (i : s.Idx) : p i = 1#1 :=
  Host.reduce_andi_all p init hr hu (fun a => a.elim0) (congrFun h _) i

/-- An extended real whose absolute value `max x (-x)` is below `+∞` (the value of the pattern `0x7F800000`) is a real
    number: both infinities have absolute value `+∞`. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The finiteness test of a float array, `all (|x| < +∞)`, came out one: every entry of `x` is a real number. -/
theorem allReal_of_reduce (x : FVec Ideal s .f32) (hb : (⟨0, ![]⟩ : Shape).BroadcastsInDim s ![]) (init : IVec u 1)
    (hr : s.ReducesTo ax ⟨0, ![]⟩) (hu : 0 < u.numel)
    (h : Host.reduce IntOp.andi
        (cmpf .olt (Host.absf x) (broadcastInDim s ![] hb (constant (F := Ideal) ⟨0, ![]⟩ .f32 0x7F800000#32))) init hr hu
      = fun _ => 1#1) (i : s.Idx) : ∃ r : ℝ, x i = (r : EReal) :=
  real_of_abs_lt_inf (x i) (all_of_reduce _ init hr hu h i)

/-- `all (x ≥ c)`, signed, for a constant word `c`, came out one: every word of `x` is at least `c`. -/
theorem sge_of_reduce (x : IVec s 32) (c : BitVec 32) (hb : (⟨0, ![]⟩ : Shape).BroadcastsInDim s ![]) (init : IVec u 1)
    (hr : s.ReducesTo ax ⟨0, ![]⟩) (hu : 0 < u.numel)
    (h : Host.reduce IntOp.andi (cmpi .sge x (broadcastInDim s ![] hb (constantI ⟨0, ![]⟩ 32 c))) init hr hu
      = fun _ => 1#1) (i : s.Idx) : c.toInt ≤ (x i).toInt :=
  IntOp.cmpi_sge.1 (all_of_reduce _ init hr hu h i)

/-- `all (x < c)`, signed, for a constant word `c`, came out one: every word of `x` is below `c`. -/
theorem slt_of_reduce (x : IVec s 32) (c : BitVec 32) (hb : (⟨0, ![]⟩ : Shape).BroadcastsInDim s ![]) (init : IVec u 1)
    (hr : s.ReducesTo ax ⟨0, ![]⟩) (hu : 0 < u.numel)
    (h : Host.reduce IntOp.andi (cmpi .slt x (broadcastInDim s ![] hb (constantI ⟨0, ![]⟩ 32 c))) init hr hu
      = fun _ => 1#1) (i : s.Idx) : (x i).toInt < c.toInt :=
  IntOp.cmpi_slt.1 (all_of_reduce _ init hr hu h i)

end Cert.PreDecode
-- ==== Proof.BitsTables.lean ====
/-
  The two index tables name rows of their tables. From the precondition: every entry of the user table is at least 0
  and below 100000, every entry of the item table at least 0 and below 50000 (as signed words), so as natural numbers
  they are below the heights; and from that, the pipeline's side condition of the tables: at every grid point the row
  block each table names lies inside its array.
-/
import proofs.«412117_j10952166604876_2_alg».proof.Proof.BitsRun
import proofs.«412117_j10952166604876_2_alg».proof.Proof.Gen.Pre_finite_inputs
import proofs.«412117_j10952166604876_2_alg».proof.Proof.LibPreDecode

noncomputable section

namespace Cert.Kernel.Tables

open Idealize.ShloMosaic Idealize.ShloMosaic.TcCoe Idealize.SL.Sem
open Cert.Kernel.Gen Cert.Kernel.Run

variable {F : FTy → Type} [FloatOps F]
variable (m : (ℓ : Loc nD τ sig) → Buf (Elt F) ℓ)

/-- A 32-bit word whose signed value lies in [0, n), for a bound word `c` of signed value `n`, has unsigned value
    below `n`: a signed value that is not negative is the unsigned value. -/
theorem toNat_lt_of_signed_range (w c : BitVec 32) (n : ℕ) (hc : c.toInt = (n : ℤ))
    (h0 : (0#32 : BitVec 32).toInt ≤ w.toInt) (h1 : w.toInt < c.toInt) : w.toNat < n := by
  have hz : (0#32 : BitVec 32).toInt = 0 := by decide
  rw [hz] at h0
  rw [hc] at h1
  have hw := w.isLt
  rw [BitVec.toInt_eq_toNat_cond] at h0 h1
  split at h0 <;> omega

/-- From the precondition on one device: as natural numbers the user table's entries are below 100000 and the item
    table's below 50000. -/
theorem rows_of_pre (c : Dev nD)
    (h : Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = (fun _ => 1#1)) :
    (∀ j : S16384.Idx, ((m ((c.tc : Thread nD τ).loc main_arg5) : S16384.Idx → BitVec 32) j).toNat < 100000)
      ∧ (∀ j : S16384.Idx, ((m ((c.tc : Thread nD τ).loc main_arg6) : S16384.Idx → BitVec 32) j).toNat < 50000) := by
  -- the predicate is a left-nested conjunction of seven "all"s; the last four speak of the two tables
  have h' := h
  dsimp only [Cert.Pre_finite_inputs.fn, Cert.Pre_finite_inputs.fn_part1] at h'
  have hi_lt := Cert.PreDecode.andi_right h'
  have h6 := Cert.PreDecode.andi_left h'
  have hi_ge := Cert.PreDecode.andi_right h6
  have h5 := Cert.PreDecode.andi_left h6
  have hu_lt := Cert.PreDecode.andi_right h5
  have h4 := Cert.PreDecode.andi_left h5
  have hu_ge := Cert.PreDecode.andi_right h4
  refine ⟨fun j => ?_, fun j => ?_⟩
  · exact toNat_lt_of_signed_range _ (100000#32) 100000 (by decide)
      (Cert.PreDecode.sge_of_reduce _ _ _ _ _ _ hu_ge j) (Cert.PreDecode.slt_of_reduce _ _ _ _ _ _ hu_lt j)
  · exact toNat_lt_of_signed_range _ (50000#32) 50000 (by decide)
      (Cert.PreDecode.sge_of_reduce _ _ _ _ _ _ hi_ge j) (Cert.PreDecode.slt_of_reduce _ _ _ _ _ _ hi_lt j)

/-- The tables' contents as plain arrays of words. -/
abbrev userTbl : S16384.Idx → BitVec 32 := tbl m 0
abbrev itemTbl : S16384.Idx → BitVec 32 := tbl m 1

theorem userTbl_eq : userTbl m = m (((0 : Dev nD).tc : Thread nD τ).loc main_arg5) := rfl
theorem itemTbl_eq : itemTbl m = m (((0 : Dev nD).tc : Thread nD τ).loc main_arg6) := rfl

/-- A block of one row, at row `r` of the array of 100000 rows of one 64-wide line each, lies inside the array when
    `r < 100000`: along the rows `(r + 1) · 1 ≤ 100000`, along the two other axes the block is the whole extent. -/
theorem rowBlock_inside_user (r : ℕ) (hr : r < 100000) (a : Fin 3) :
    ((![r, 0, 0] : Fin 3 → ℕ) a + 1) * S1x1x64.size a ≤ S100000x1x64.size a := by
  match a with
  | ⟨0, _⟩ => show (r + 1) * 1 ≤ 100000; omega
  | ⟨1, _⟩ => show (0 + 1) * 1 ≤ 1; omega
  | ⟨2, _⟩ => show (0 + 1) * 64 ≤ 64; omega

/-- The same for the array of 50000 rows: a block of one row at row `r < 50000` lies inside it. -/
theorem rowBlock_inside_item (r : ℕ) (hr : r < 50000) (a : Fin 3) :
    ((![r, 0, 0] : Fin 3 → ℕ) a + 1) * S1x1x64.size a ≤ S50000x1x64.size a := by
  match a with
  | ⟨0, _⟩ => show (r + 1) * 1 ≤ 50000; omega
  | ⟨1, _⟩ => show (0 + 1) * 1 ≤ 1; omega
  | ⟨2, _⟩ => show (0 + 1) * 64 ≤ 64; omega

/-- The block the first window's index map names at a grid point is (t, 0, 0), `t` the user table's word at some
    index (the index is the grid coordinate; which one does not matter here). -/
theorem userBlock_eq (pf : pre1.Contents (Elt F)) (i : grid1.Coords) :
    ∃ j : S16384.Idx, cc1_transform_0 k1_off1_inb numel1_S1 pf i = ![((pf 0 : S16384.Idx → BitVec 32) j).toNat, 0, 0] :=
  ⟨_, rfl⟩

/-- The same for the second window and the item table. -/
theorem itemBlock_eq (pf : pre1.Contents (Elt F)) (i : grid1.Coords) :
    ∃ j : S16384.Idx, cc1_transform_1 k1_off1_inb numel1_S1 pf i = ![((pf 1 : S16384.Idx → BitVec 32) j).toNat, 0, 0] :=
  ⟨_, rfl⟩

/-- Whatever the tables hold, if every word of the first is below 100000 and every word of the second below 50000,
    every block the two index maps name lies inside its array; the elements are one word wide, so a transfer's ends
    are word-exact. -/
theorem ok1_of_rows (pf : pre1.Contents (Elt F))
    (hu : ∀ j : S16384.Idx, ((pf 0 : S16384.Idx → BitVec 32) j).toNat < 100000)
    (hi : ∀ j : S16384.Idx, ((pf 1 : S16384.Idx → BitVec 32) j).toNat < 50000) : ok1 pf := by
  refine ⟨fun i => ⟨fun a => ?_, Or.inl rfl⟩, fun i => ⟨fun a => ?_, Or.inl rfl⟩⟩
  · obtain ⟨j, e⟩ := userBlock_eq pf i
    rw [e]; exact rowBlock_inside_user _ (hu j) a
  · obtain ⟨j, e⟩ := itemBlock_eq pf i
    rw [e]; exact rowBlock_inside_item _ (hi j) a

/-- Entries below the heights give the pipeline's side condition. -/
theorem ok_of_rows (hu : ∀ j, (userTbl m j).toNat < 100000) (hi : ∀ j, (itemTbl m j).toNat < 50000) : Ok m :=
  ok1_of_rows (tbl m) hu hi

end Cert.Kernel.Tables

end
-- ==== Proof.BitsFrame.lean ====
/-
  What the run gives the certificate. No item writes an argument array (the host stretches write their own results, the
  two regions their output arrays), so each argument ends as launched: the frame. And the result array ends at the last
  boundary's contents. Both under the tables' side condition, which the precondition gives.
-/
import proofs.«412117_j10952166604876_2_alg».proof.Proof.BitsRun
import proofs.«412117_j10952166604876_2_alg».proof.Proof.BitsTables

set_option maxRecDepth 16384

noncomputable section

namespace Cert.Kernel.Run

open Idealize.ShloMosaic Idealize.ShloMosaic.TcCoe Idealize.SL.Sem
open Cert.Kernel.Gen Cert.Kernel.Bodies Cert.Kernel.Tables

variable {F : FTy → Type} [FloatOps F]
variable (m : (ℓ : Loc nD τ sig) → Buf (Elt F) ℓ) (ρ : Dev nD → PrngReg)

/-- A buffer that no host operation writes and that is neither region's array holds its launch contents at the end. -/
theorem W5_kept (hO : Ok m) (c : Dev nD) (b : Ref sig .tc) (h0 : b ∉ hostOps0_W) (h1 : b ∉ hostOps1_W) (h2 : b ∉ hostOps2_W)
    (hp : ∀ w, Pipeline.arrRef spec0 w ≠ b) (hd : ∀ w, Pipeline.arrRef spec1 w ≠ b) :
    W5 m hO c (Proc.devRef .tc b) = m ((c : Thread nD τ).loc b) :=
  calc W5 m hO c (Proc.devRef .tc b)
    _ = W4 m hO c (Proc.devRef .tc b) := StableHlo.after_of_writes_sub hostOps2 _ hostOps2_writes h2
    _ = W3 m c (Proc.devRef .tc b) := W4_of_ne m hO c b hd
    _ = m ((c : Thread nD τ).loc b) := V3_kept m c b h0 h1 hp

/-- The side condition of the tables from the precondition. -/
theorem ok_of_pre
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = (fun _ => 1#1)) : Ok m :=
  ok_of_rows m (rows_of_pre m 0 (h 0)).1 (rows_of_pre m 0 (h 0)).2

/-- THE FRAME, at any float instance: every weakly fair execution terminates, nothing faulting, the seven argument
    arrays as launched. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_kept m hO c main_arg0 (by decide) (by decide) (by decide) (by decide) (by decide)),
     (h c _ (mem_uc main_arg1 (by decide))).trans (W5_kept m hO c main_arg1 (by decide) (by decide) (by decide) (by decide) (by decide)),
     (h c _ (mem_uc main_arg2 (by decide))).trans (W5_kept m hO c main_arg2 (by decide) (by decide) (by decide) (by decide) (by decide)),
     (h c _ (mem_uc main_arg3 (by decide))).trans (W5_kept m hO c main_arg3 (by decide) (by decide) (by decide) (by decide) (by decide)),
     (h c _ (mem_uc main_arg4 (by decide))).trans (W5_kept m hO c main_arg4 (by decide) (by decide) (by decide) (by decide) (by decide)),
     (h c _ (mem_uc main_arg5 (by decide))).trans (W5_kept m hO c main_arg5 (by decide) (by decide) (by decide) (by decide) (by decide)),
     (h c _ (mem_uc main_arg6 (by decide))).trans (W5_kept m hO c main_arg6 (by decide) (by decide) (by decide) (by decide) (by decide))⟩)
    (run_all m ρ hO)

/-- The run with the result named: the result array ends at the last boundary's contents, the arguments as launched. -/
theorem run_value (hO : Ok m) : θ_run defs (onTc (τ := τ) (main (F := F))) ⟨m, fun _ => 0, ρ⟩ (fun r => ∀ c : Dev nD,
      r.2.mem ((c.tc : Thread nD τ).loc main_v46) = W5 m hO c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v46 (by decide)),
     (h c _ (mem_uc main_arg0 (by decide))).trans (W5_kept m hO c main_arg0 (by decide) (by decide) (by decide) (by decide) (by decide)),
     (h c _ (mem_uc main_arg1 (by decide))).trans (W5_kept m hO c main_arg1 (by decide) (by decide) (by decide) (by decide) (by decide)),
     (h c _ (mem_uc main_arg2 (by decide))).trans (W5_kept m hO c main_arg2 (by decide) (by decide) (by decide) (by decide) (by decide)),
     (h c _ (mem_uc main_arg3 (by decide))).trans (W5_kept m hO c main_arg3 (by decide) (by decide) (by decide) (by decide) (by decide)),
     (h c _ (mem_uc main_arg4 (by decide))).trans (W5_kept m hO c main_arg4 (by decide) (by decide) (by decide) (by decide) (by decide)),
     (h c _ (mem_uc main_arg5 (by decide))).trans (W5_kept m hO c main_arg5 (by decide) (by decide) (by decide) (by decide) (by decide)),
     (h c _ (mem_uc main_arg6 (by decide))).trans (W5_kept m hO c main_arg6 (by decide) (by decide) (by decide) (by decide) (by decide))⟩)
    (run_all m ρ hO)

end Cert.Kernel.Run

end
-- ==== Proof.IdealBodies.lean ====
/-
  The two kernel bodies of the idealized program, each at a parameter: the contents `V` of the unscoped buffers when
  its region is entered and, for the call whose index maps read the two index tables, any admissible contents `a` of
  those tables. Region 0 (the mean pool) reads one block of 6000 rows from each of the four layer tables and stores
  one block: the sum of the four, in order, times one quarter. Region 1 (the gathered dot product) reads one row of
  the user table and one row of the item table, the rows the tables name at the point, and stores one number: the
  sum over the 64 columns of their products. Per region: a window's block at a point read off its array, what the
  body leaves in its output block as a function of the input blocks, the body's triple, the pipeline's proof data
  (inputs left in place, the output at that function, nothing owed) and the body obligation at every point.
-/
import proofs.«412117_j10952166604876_2_alg».proof.Proof.Gen.KernelIdeal.Launch
import proofs.«412117_j10952166604876_2_alg».proof.Proof.Gen.KernelIdeal.Skeleton
import proofs.«412117_j10952166604876_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Bodies

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the mean pool -/

/-- Window `w`'s block at point `t`: rows `6000 t … 6000 t + 5999` of its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s
    and whose body leaves the block in place. One statement per input window (the window is a literal). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- The whole 6000 × 64 block: the one rectangle every access of the body goes through. -/
abbrev whole0 : Rect S6000x64 := Rect.unit (s := S6000x64) ![0, 0] S6000x64.size inb_S6000x64_S6000x64_0_0

/-- What the body leaves in the output block, from the four input blocks: its one store, of the whole block. -/
def pooled (x0 x1 x2 x3 : Vec F S6000x64 .f32) : Vec F S6000x64 .f32 :=
  View.canon [⟨whole0, k0_pay1 (View.ld x0 whole0) (View.ld x1 whole0) (View.ld x2 whole0) (View.ld x3 whole0)⟩]

/-- The one store covers the block. -/
theorem pooled_cover (p0 : Vec F S6000x64 .f32) (y : S6000x64.Idx) :
    ∃ pc ∈ ([⟨whole0, p0⟩] : List (View.Piece (Elt F) S6000x64 .f32)), y ∈ pc.1.set :=
  View.cover_of_tiled [⟨whole0, p0⟩] S6000x64.size (by rfl) y

set_option maxHeartbeats 1000000 in
/-- The body on whole staging memrefs, the four inputs' at read contents and the output's at anything, runs to the
    continuation with the inputs' as they were and the output's at `pooled` of them. -/
theorem pool_body (c : Dev nD) (E : Set ℕ) (i : grid0.Coords)
    (arg1 : Memref sig .tc .vmem S6000x64 .f32) (harg1 : arg1.IsWhole) (arg2 : Memref sig .tc .vmem S6000x64 .f32) (harg2 : arg2.IsWhole)
    (arg3 : Memref sig .tc .vmem S6000x64 .f32) (harg3 : arg3.IsWhole) (arg4 : Memref sig .tc .vmem S6000x64 .f32) (harg4 : arg4.IsWhole)
    (arg5 : Memref sig .tc .vmem S6000x64 .f32) (harg5 : arg5.IsWhole)
    (x0 x1 x2 x3 : Vec F S6000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (pooled x0 x1 x2 x3)) -∗ K ⟨⟩))
      ⊢ wp frame (wpE (defs₀ (F := F)) Variants.none c none) E (cc0__meanpool_kernel i arg1 harg1 arg2 harg2 arg3 harg3 arg4 harg4 arg5 harg5) K := by
  simp only [cc0__meanpool_kernel_eq_skeleton]; unfold cc0__meanpool_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (pooled_cover _)

/-- The proof data of the pool's pipeline on core `c`: the arrays as the region finds them; after the body at point
    `t` each input's buffer at its block and the output's at `pooled` of the four; the scoped rest and the generator
    register pass through; nothing owed; full shares. -/
def poolDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => pooled (blk0 V c 0 t) (blk0 V c 1 t) (blk0 V c 2 t) (blk0 V c 3 t)
  Φ _ := Pipeline.ΦA spec0 c
  q _ := fullShare
  owed _ := 0

theorem poolDat_A (c : Dev nD) (w : Fin cfg0.W) : (poolDat V c).A w = V c (Pipeline.arrRef spec0 w) := by
  dsimp only [poolDat]

theorem poolDat_after0 (c : Dev nD) (t : Fin cfg0.N) : (poolDat V c).after 0 t = blk0 V c 0 t := by dsimp only [poolDat]
theorem poolDat_after1 (c : Dev nD) (t : Fin cfg0.N) : (poolDat V c).after 1 t = blk0 V c 1 t := by dsimp only [poolDat]
theorem poolDat_after2 (c : Dev nD) (t : Fin cfg0.N) : (poolDat V c).after 2 t = blk0 V c 2 t := by dsimp only [poolDat]
theorem poolDat_after3 (c : Dev nD) (t : Fin cfg0.N) : (poolDat V c).after 3 t = blk0 V c 3 t := by dsimp only [poolDat]
theorem poolDat_after4 (c : Dev nD) (t : Fin cfg0.N) :
    (poolDat V c).after 4 t = pooled (blk0 V c 0 t) (blk0 V c 1 t) (blk0 V c 2 t) (blk0 V c 3 t) := by dsimp only [poolDat]

theorem poolDat_before0 (c : Dev nD) (t : Fin cfg0.N) (d) : (poolDat V c).before 0 t d = blk0 V c 0 t :=
  before0_0_of V (poolDat V c) (poolDat_A V c 0) (poolDat_after0 V c) t d
theorem poolDat_before1 (c : Dev nD) (t : Fin cfg0.N) (d) : (poolDat V c).before 1 t d = blk0 V c 1 t :=
  before0_1_of V (poolDat V c) (poolDat_A V c 1) (poolDat_after1 V c) t d
theorem poolDat_before2 (c : Dev nD) (t : Fin cfg0.N) (d) : (poolDat V c).before 2 t d = blk0 V c 2 t :=
  before0_2_of V (poolDat V c) (poolDat_A V c 2) (poolDat_after2 V c) t d
theorem poolDat_before3 (c : Dev nD) (t : Fin cfg0.N) (d) : (poolDat V c).before 3 t d = blk0 V c 3 t :=
  before0_3_of V (poolDat V c) (poolDat_A V c 3) (poolDat_after3 V c) t d

/-- What the pool's body is called with at point `t`, the windows one by one, -/
def poolPre (c : Dev nD) (t : Fin cfg0.N) : sProp 𝕄 :=
  iprop((poolDat V c).Φ t.castSucc ∗ (poolDat V c).owesAt () t.castSucc
    ∗ (∃ d, owns (c : Thread nD τ) (st0_0 t) fullShare ((poolDat V c).before 0 t d))
    ∗ (∃ d, owns (c : Thread nD τ) (st0_1 t) fullShare ((poolDat V c).before 1 t d))
    ∗ (∃ d, owns (c : Thread nD τ) (st0_2 t) fullShare ((poolDat V c).before 2 t d))
    ∗ (∃ d, owns (c : Thread nD τ) (st0_3 t) fullShare ((poolDat V c).before 3 t d))
    ∗ (∃ d, owns (c : Thread nD τ) (st0_4 t) fullShare ((poolDat V c).before 4 t d)))

/-- and what it returns. -/
def poolPost (c : Dev nD) (t : Fin cfg0.N) : sProp 𝕄 :=
  iprop((poolDat V c).Φ t.succ ∗ (poolDat V c).owesAt () t.succ
    ∗ owns (c : Thread nD τ) (st0_0 t) fullShare ((poolDat V c).after 0 t)
    ∗ owns (c : Thread nD τ) (st0_1 t) fullShare ((poolDat V c).after 1 t)
    ∗ owns (c : Thread nD τ) (st0_2 t) fullShare ((poolDat V c).after 2 t)
    ∗ owns (c : Thread nD τ) (st0_3 t) fullShare ((poolDat V c).after 3 t)
    ∗ owns (c : Thread nD τ) (st0_4 t) fullShare ((poolDat V c).after 4 t))

/-- The pool's body at any point: the inputs' memrefs hold their blocks, so `pool_body` applies; the invariant and the
    core's dues pass through unread. -/
theorem pool_sound (c : Dev nD) (t : Fin cfg0.N) :
    poolPre V c t ⊢ wp frame (wpE (defs₀ (F := F)) Variants.none c none) Set.univ (bodyAt0 t) (fun _ => poolPost V c t) := by
  unfold poolPre poolPost bodyAt0
  simp only [poolDat_before0, poolDat_before1, poolDat_before2, poolDat_before3]
  rw [show (poolDat V c).Φ t.succ = (poolDat V c).Φ t.castSucc from rfl,
    show (poolDat V c).owesAt () t.succ = (poolDat V c).owesAt () t.castSucc from rfl,
    poolDat_after0, poolDat_after1, poolDat_after2, poolDat_after3, poolDat_after4]
  iintro ⟨HΦ, Ho, ⟨%d0, H0⟩, ⟨%d1, H1⟩, ⟨%d2, H2⟩, ⟨%d3, H3⟩, ⟨%d4, H4⟩⟩
  iapply (pool_body c Set.univ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pool's body obligation, at every point. -/
theorem pool_obligation (c : Dev nD) : BodyObligation (poolDat (F := F) V c) (defs₀ (F := F)) Variants.none () Set.univ := fun t => by
  rw [bigSep_W0, bigSep_W0]
  exact pool_sound V c t

/-! # Region 1: the gathered dot product, at any admissible contents `a` of the two index tables -/

section Tables

variable (a : (pcfg1 (F := F)).Adm)

/-- Window `w`'s block at point `t` read off its array as the region finds it: for the two row windows, the row the
    window's table names at `t`. -/
def blk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem before1_0_of {c : Dev nD} (dat : Dat τ (Elt F) Unit ℕ (UR sig nD τ) ℕ (cfg1 a) c) (hA : dat.A 0 = V c (Pipeline.arrRef spec1 0))
    (hafter : ∀ t, dat.after 0 t = blk1 V a c 0 t) (t : Fin (cfg1 a).N) (d) : dat.before 0 t d = blk1 V a c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = blk1 V a c 1 t) (t : Fin (cfg1 a).N) (d) : dat.before 1 t d = blk1 V a c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- One row, 1 × 1 × 64, and the one output number, 1 × 1 × 1: the rectangles the body's accesses go through. -/
abbrev row1 : Rect S1x1x64 := Rect.unit (s := S1x1x64) ![0, 0, 0] S1x1x64.size inb_S1x1x64_S1x1x64_0_0_0
abbrev one1 : Rect S1x1x1 := Rect.unit (s := S1x1x1) ![0, 0, 0] S1x1x1.size inb_S1x1x1_S1x1x1_0_0_0

/-- What the body leaves in the output block, from the two rows: its one store. -/
def dotted (x0 x1 : Vec F S1x1x64 .f32) : Vec F S1x1x1 .f32 :=
  View.canon [⟨one1, k1_pay1 (View.ld x0 row1) (View.ld x1 row1)⟩]

theorem dotted_cover (p0 : Vec F S1x1x1 .f32) (y : S1x1x1.Idx) :
    ∃ pc ∈ ([⟨one1, p0⟩] : List (View.Piece (Elt F) S1x1x1 .f32)), y ∈ pc.1.set :=
  View.cover_of_tiled [⟨one1, p0⟩] S1x1x1.size (by rfl) y

set_option maxHeartbeats 1000000 in
/-- The body on whole staging memrefs (it never touches the two tables it is handed): the rows' at read contents and
    the output's at anything, to the rows' as they were and the output's at `dotted` of them. -/
theorem dot_body (c : Dev nD) (E : Set ℕ) (i : grid1.Coords)
    (arg1 : Memref sig .tc .smem S16384 .i32) (harg1 : arg1.IsWhole) (arg2 : Memref sig .tc .smem S16384 .i32) (harg2 : arg2.IsWhole)
    (arg3 : Memref sig .tc .vmem S1x1x64 .f32) (harg3 : arg3.IsWhole) (arg4 : Memref sig .tc .vmem S1x1x64 .f32) (harg4 : arg4.IsWhole)
    (arg5 : Memref sig .tc .vmem S1x1x1 .f32) (harg5 : arg5.IsWhole)
    (x0 x1 : Vec F S1x1x64 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (dotted x0 x1)) -∗ K ⟨⟩))
      ⊢ wp frame (wpE (defs₀ (F := F)) Variants.none c none) E (cc1__gather_dot_kernel i arg1 harg1 arg2 harg2 arg3 harg3 arg4 harg4 arg5 harg5) K := by
  simp only [cc1__gather_dot_kernel_eq_skeleton]; unfold cc1__gather_dot_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (dotted_cover _)

/-- Each window's current staging memref at point `t`, as the pipeline passes it, and the body as it is called there. -/
abbrev st1_0 (t : Fin (cfg1 a).N) : Memref sig .tc .vmem S1x1x64 .f32 := spec1_0.stage ((cfg1 a).slots t 0)
abbrev st1_1 (t : Fin (cfg1 a).N) : Memref sig .tc .vmem S1x1x64 .f32 := spec1_1.stage ((cfg1 a).slots t 1)
abbrev st1_2 (t : Fin (cfg1 a).N) : Memref sig .tc .vmem S1x1x1 .f32 := spec1_2.stage ((cfg1 a).slots t 2)
abbrev bodyAt1 (t : Fin (cfg1 a).N) : Prog (TpuEff nD τ sig (Elt F) Λ₀ .tc) PUnit :=
  cc1__gather_dot_kernel (grid1.coords t) (Memref.whole main_arg5) (Memref.isWhole_whole _) (Memref.whole main_arg6) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))

/-- The two tables held whole at the admissible contents: they ride the region's invariant untouched. -/
abbrev tablesHeld (c : Dev nD) : sProp 𝕄 :=
  Pipeline.prefHeld (Ix := Unit) (Name := ℕ) (U := UR sig nD τ) (Lvl := ℕ) (pcfg1 (F := F)).pre c (fun _ => fullShare) a.1

/-- The proof data of the dot product's pipeline on core `c`: the arrays as the region finds them; after the body at
    point `t` each row window's buffer at its row and the output's at `dotted` of the two; the scoped rest, the generator
    register and the two tables pass through; nothing owed; full shares. -/
def dotDat (c : Dev nD) : Dat τ (Elt F) Unit ℕ (UR sig nD τ) ℕ (cfg1 a) c where
  A w := V c (Pipeline.arrRef spec1 w)
  after w t := match w with
    | ⟨0, _⟩ => blk1 V a c 0 t
    | ⟨1, _⟩ => blk1 V a c 1 t
    | ⟨2, _⟩ => dotted (blk1 V a c 0 t) (blk1 V a c 1 t)
  Φ _ := iprop(Pipeline.ΦA spec1 c ∗ tablesHeld a c)
  q _ := fullShare
  owed _ := 0

theorem dotDat_A (c : Dev nD) (w : Fin (cfg1 a).W) : (dotDat V a c).A w = V c (Pipeline.arrRef spec1 w) := by
  dsimp only [dotDat]

theorem dotDat_after0 (c : Dev nD) (t : Fin (cfg1 a).N) : (dotDat V a c).after 0 t = blk1 V a c 0 t := by dsimp only [dotDat]; try rfl
theorem dotDat_after1 (c : Dev nD) (t : Fin (cfg1 a).N) : (dotDat V a c).after 1 t = blk1 V a c 1 t := by dsimp only [dotDat]; try rfl
theorem dotDat_after2 (c : Dev nD) (t : Fin (cfg1 a).N) :
    (dotDat V a c).after 2 t = dotted (blk1 V a c 0 t) (blk1 V a c 1 t) := by dsimp only [dotDat]; try rfl

theorem dotDat_before0 (c : Dev nD) (t : Fin (cfg1 a).N) (d) : (dotDat V a c).before 0 t d = blk1 V a c 0 t :=
  before1_0_of V a (dotDat V a c) (dotDat_A V a c 0) (dotDat_after0 V a c) t d
theorem dotDat_before1 (c : Dev nD) (t : Fin (cfg1 a).N) (d) : (dotDat V a c).before 1 t d = blk1 V a c 1 t :=
  before1_1_of V a (dotDat V a c) (dotDat_A V a c 1) (dotDat_after1 V a c) t d

def dotPre (c : Dev nD) (t : Fin (cfg1 a).N) : sProp 𝕄 :=
  iprop((dotDat V a c).Φ t.castSucc ∗ (dotDat V a c).owesAt () t.castSucc
    ∗ (∃ d, owns (c : Thread nD τ) (st1_0 a t) fullShare ((dotDat V a c).before 0 t d))
    ∗ (∃ d, owns (c : Thread nD τ) (st1_1 a t) fullShare ((dotDat V a c).before 1 t d))
    ∗ (∃ d, owns (c : Thread nD τ) (st1_2 a t) fullShare ((dotDat V a c).before 2 t d)))

def dotPost (c : Dev nD) (t : Fin (cfg1 a).N) : sProp 𝕄 :=
  iprop((dotDat V a c).Φ t.succ ∗ (dotDat V a c).owesAt () t.succ
    ∗ owns (c : Thread nD τ) (st1_0 a t) fullShare ((dotDat V a c).after 0 t)
    ∗ owns (c : Thread nD τ) (st1_1 a t) fullShare ((dotDat V a c).after 1 t)
    ∗ owns (c : Thread nD τ) (st1_2 a t) fullShare ((dotDat V a c).after 2 t))

theorem dot_sound (c : Dev nD) (t : Fin (cfg1 a).N) :
    dotPre V a c t ⊢ wp frame (wpE (defs₀ (F := F)) Variants.none c none) Set.univ (bodyAt1 a t) (fun _ => dotPost V a c t) := by
  unfold dotPre dotPost bodyAt1
  simp only [dotDat_before0, dotDat_before1]
  rw [show (dotDat V a c).Φ t.succ = (dotDat V a c).Φ t.castSucc from rfl,
    show (dotDat V a c).owesAt () t.succ = (dotDat V a c).owesAt () t.castSucc from rfl,
    dotDat_after0, dotDat_after1, dotDat_after2]
  iintro ⟨HΦ, Ho, ⟨%d0, H0⟩, ⟨%d1, H1⟩, ⟨%d2, H2⟩⟩
  iapply (dot_body c Set.univ _ _ _ _ _ _ _ _ _ _ _ (blk1 V a c 0 t) (blk1 V a c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem dot_obligation (c : Dev nD) : BodyObligation (dotDat (F := F) V a c) (defs₀ (F := F)) Variants.none () Set.univ := fun t => by
  rw [bigSep_W1, bigSep_W1]
  exact dot_sound V a c t

end Tables

end Cert.KernelIdeal.Bodies

end
-- ==== Proof.IdealRun.lean ====
/-
  The run of the idealized program from the launch to the return. Its @main is five items: the host stretch that
  builds the four layer tables (the concatenated embeddings and three rounds of gather, scale and scatter-add), the
  mean-pool region, the host stretch that cuts the pooled table into its user and item halves and gives each a unit
  middle axis, the gathered-dot-product region, and the final reshape. Named here: the contents of the unscoped
  buffers at each of the six boundaries (a fold from the launch memory: a host stretch applies its operations, a
  region overwrites its output array with what its write-backs leave), the two index tables as read off the launch
  memory (no item writes them), every pipeline's proof data at its region's entry contents, each item as a segment
  over the state "every unscoped buffer at the boundary's contents, the generator register somewhere, nothing
  owed", and the launch: under the side condition that every table entry names a row of its table, every weakly fair
  execution terminates and every unscoped buffer ends at the last boundary's contents.
-/
import proofs.«412117_j10952166604876_2_alg».proof.Proof.IdealBodies
import proofs.«412117_j10952166604876_2_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Bodies

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two index tables -/

/-- The tables' contents at launch (the program runs on one device). -/
def tbl : pre1.Contents (Elt F) := fun j => m (((0 : Dev nD) : Thread nD τ).loc (pre1.ref j))

/-- The pipeline's side condition of the tables: every entry of the user table names a row of the 100000-row table,
    every entry of the item table a row of the 50000-row table. -/
abbrev Ok : Prop := ok1 (F := F) (tbl m)

/-- The tables as admissible contents. -/
abbrev adm1 (hO : Ok m) : (pcfg1 (F := F)).Adm := ⟨tbl m, hO⟩

/-- Every pipeline's admissible tables: the pool has none. -/
def adm (hO : Ok m) : (p : Fin 2) → (pcfgs (F := F) p).Adm
  | ⟨0, _⟩ => cfg0.toPCfg_adm
  | ⟨1, _⟩ => adm1 m hO

/-! ## The buffers' contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the pool: its output array at what its write-backs leave, every other buffer as entered. -/
def W2 (c : Dev nD) : Valuation τ sig (Elt F) :=
  Pipeline.withArrays spec0 c (W1 m c) fun w => (poolDat (V1 m) c).arrAt w cfg0.N
theorem W2_arr (c : Dev nD) (w : Fin cfg0.W) :
    W2 m c (Proc.devRef .tc (Pipeline.arrRef spec0 w)) = (poolDat (V1 m) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem pool_final (c : Dev nD) (w : Fin cfg0.W) : (poolDat (V1 m) c).arrAt w cfg0.N = V2 m c (Pipeline.arrRef spec0 w) :=
  (W2_arr m c w).symm
theorem pool_rest (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the dot product: its output array at what its write-backs leave, every other buffer as entered. -/
def W4 (hO : Ok m) (c : Dev nD) : Valuation τ sig (Elt F) :=
  Pipeline.withArrays spec1 c (W3 m c) fun w => (dotDat (V3 m) (adm1 m hO) c).arrAt w (cfg1 (adm1 m hO)).N
theorem W4_arr (hO : Ok m) (c : Dev nD) (w : Fin (cfg1 (adm1 m hO)).W) :
    W4 m hO c (Proc.devRef .tc (Pipeline.arrRef spec1 w)) = (dotDat (V3 m) (adm1 m hO) c).arrAt w (cfg1 (adm1 m hO)).N := by
  unfold W4; exact Pipeline.withArrays_arr spec1 (launch1 (F := F)).win.arr_inj c _ _ w
theorem W4_of_ne (hO : Ok m) (c : Dev nD) (b : Ref sig .tc) (hb : ∀ w, Pipeline.arrRef spec1 w ≠ b) :
    W4 m hO c (Proc.devRef .tc b) = W3 m c (Proc.devRef .tc b) := by
  unfold W4; exact Pipeline.withArrays_of_ne spec1 c _ _ b hb
abbrev V4 (hO : Ok m) : (c : Dev nD) → (b : Ref sig .tc) → Buf (Elt F) ((c : Thread nD τ).loc b) := fun c b => W4 m hO c b
theorem dot_final (hO : Ok m) (c : Dev nD) (w : Fin (cfg1 (adm1 m hO)).W) :
    (dotDat (V3 m) (adm1 m hO) c).arrAt w (cfg1 (adm1 m hO)).N = V4 m hO c (Pipeline.arrRef spec1 w) :=
  (W4_arr m hO c w).symm
theorem dot_rest (hO : Ok m) (c : Dev nD) : ∀ b, b ∉ Finset.univ.image (Pipeline.arrRef spec1) → V4 m hO c b = V3 m c b :=
  fun b hb => W4_of_ne m hO c b fun w e => hb (Finset.mem_image.mpr ⟨w, Finset.mem_univ _, e⟩)

abbrev W5 (hO : Ok m) : Dev nD → Valuation τ sig (Elt F) := fun c => StableHlo.after hostOps2 (W4 m hO c)

/-! ## A buffer no item writes keeps its launch contents: the arguments, the tables among them -/

/-- Through the first three items a buffer that no host operation writes and that is not the pool's output array holds
    its launch contents. -/
theorem V3_kept (c : Dev nD) (b : Ref sig .tc) (h0 : b ∉ hostOps0_W) (h1 : b ∉ hostOps1_W) (hp : ∀ w, Pipeline.arrRef spec0 w ≠ b) :
    V3 m c b = m ((c : Thread nD τ).loc b) :=
  calc V3 m c b
    _ = W2 m c (Proc.devRef .tc b) := StableHlo.after_of_writes_sub hostOps1 _ hostOps1_writes h1
    _ = W1 m c (Proc.devRef .tc b) := W2_of_ne m c b hp
    _ = W0 m c (Proc.devRef .tc b) := StableHlo.after_of_writes_sub hostOps0 _ hostOps0_writes h0
    _ = m ((c : Thread nD τ).loc b) := rfl

/-- The tables reach the dot product as launched. -/
theorem V3_table (c : Dev nD) (k : Fin 2) : V3 m c (pre1.ref k) = tbl m k := by
  obtain rfl : c = 0 := Subsingleton.elim _ _
  match k with
  | ⟨0, _⟩ => exact V3_kept m 0 main_arg5 (by decide) (by decide) (by decide)
  | ⟨1, _⟩ => exact V3_kept m 0 main_arg6 (by decide) (by decide) (by decide)

/-! ## The proof data family and the thread state -/

/-- Every pipeline's proof data, each at its region's entry contents. -/
def pdats (hO : Ok m) : (p : Fin 2) → (c : Dev nD) → Dat τ (Elt F) Unit ℕ (UR sig nD τ) ℕ (Pipeline.pin (pcfgs (F := F)) (adm m hO) p) c
  | ⟨0, _⟩ => fun c => poolDat (V1 m) c
  | ⟨1, _⟩ => fun c => dotDat (V3 m) (adm1 m hO) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (hO : Ok m) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last state without the dues: every unscoped buffer at the last boundary's contents, the generator register. -/
abbrev Tₙ (hO : Ok m) (c : Dev nD) : sProp 𝕄 := iprop(StableHlo.held (c : Thread nD τ) (Pipeline.ucRefs τ sig) (W5 m hO c) ∗ ∃ r, prngReg c r)

/-- The tables the dot product's region is entered with are the admissible contents. -/
theorem tables_entry (hO : Ok m) (c : Dev nD) : (fun k => V3 m c ((pcfgs (F := F) 1).pre.ref k)) = (adm m hO 1).1 :=
  funext fun k => V3_table m c k

/-! ## The regions as segments -/

set_option backward.isDefEq.respectTransparency.types false in
/-- The pool's region: entered from every unscoped buffer at `W1`, left at `W2`. Its arrays split out of the unscoped
    buffers and put back at the exit contents; the generator register into the invariant and out; nothing owed. -/
def poolReg (hO : Ok m) : Pipeline.RegionSeg (pcfgs (F := F)) (adm m hO) (pdats m hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (pool_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) (adm m hO) (pdats m hO) (launch0 (F := F)).win (launch0 (F := F)).arr_whole c
      ((pdats m hO 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hO 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m hO) (Ix := Unit) (Name := ℕ) (U := UR sig nD τ) (Lvl := ℕ)
      (launch0 (F := F)).win (launch0 (F := F)).arr_whole c (pdats m hO) ((pdats m hO 0 c).share_full fun _ => rfl)
      (V1 m c) (V2 m c) ((pdats m hO 0 c).arrAt · cfg0.N) (pool_final m c) (pool_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The dot product's region: entered from every unscoped buffer at `W3`, left at `W4`. At entry the unscoped buffers
    split three ways — the windows' arrays, the two tables (whole, at the admissible contents), the rest —; the tables
    ride the invariant untouched and rejoin the rest at the exit. -/
def dotReg (hO : Ok m) : Pipeline.RegionSeg (pcfgs (F := F)) (adm m hO) (pdats m hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (dot_obligation (V3 m) (adm1 m hO) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m hO c) ∗ R c)
  X c := iprop(∃ r, prngReg c r)
  Y c := iprop((∃ r, prngReg c r) ∗ tablesHeld (adm1 m hO) c)
  Z c := Pipeline.unscopedRestP (Ix := Unit) (Name := ℕ) (U := UR sig nD τ) (Lvl := ℕ) pre1 spec1 c (V3 m c)
  hentry c := by
    rw [Pipeline.ownSems0_none]
    have hsplit := Pipeline.arrays_of_unscopedBufs (p := 1) (pcfgs (F := F)) (adm m hO) (pdats m hO) (launch1 (F := F)).win (launch1 (F := F)).arr_whole c
      ((pdats m hO 1 c).share_full fun _ => rfl) (V3 m c) fun _ => rfl
    rw [Pipeline.unscopedBufs_held, Pipeline.unscopedRest_split (launch1 (F := F)).pre c (V3 m c), tables_entry m hO c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hO 1 c).Φ 0 = iprop(Pipeline.ΦA spec1 c ∗ tablesHeld (adm1 m hO) c) from rfl]; unfold Pipeline.ΦA
    iintro ⟨Hp, Ht, Hr⟩
    isplitr [Ht]
    · isplitl [Hr] <;> iassumption
    · iexact Ht
  hout c := by
    rw [Pipeline.ownSems0_none, show (pdats m hO 1 c).Φ (Fin.last _) = iprop(Pipeline.ΦA spec1 c ∗ tablesHeld (adm1 m hO) c) from rfl]; unfold Pipeline.ΦA
    iintro ⟨⟨Hr, Hp⟩, Ht⟩
    isplitl [Hp Ht]
    · isplitl [Hp] <;> iassumption
    isplitr; · iempintro
    iexact Hr
  hexit c := by
    have hjoin := Pipeline.unscopedBufs_of_arrays (p := 1) (pcfgs (F := F)) (adm m hO) (Ix := Unit) (Name := ℕ) (U := UR sig nD τ) (Lvl := ℕ)
      (launch1 (F := F)).win (launch1 (F := F)).arr_whole c (pdats m hO) ((pdats m hO 1 c).share_full fun _ => rfl)
      (V3 m c) (V4 m hO c) ((pdats m hO 1 c).arrAt · (cfg1 (adm1 m hO)).N) (dot_final m hO c) (dot_rest m hO c)
    rw [Pipeline.unscopedBufs_held, Pipeline.unscopedRest_split (launch1 (F := F)).pre c (V3 m c), tables_entry m hO c] at hjoin
    iintro ⟨Ha, HO, ⟨Hp, Ht⟩, Hrest⟩
    imodintro
    isplitl [Ha Ht Hrest]
    · iapply hjoin; isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## @main as segments, and the launch -/

/-- @main's five items in order. -/
abbrev segs (hO : Ok m) : List (Pipeline.Seg (pcfgs (F := F)) (adm m hO) (pdats m hO) () defs₀ 𝒱₀ L lv) :=
  [ .host (hseg m hO hostOps0 hostOps0_sub hostOps0_fresh (W0 m)),
    .region (poolReg m hO),
    .host (hseg m hO hostOps1 hostOps1_sub hostOps1_fresh (W2 m)),
    .region (dotReg m hO),
    .host (hseg m hO hostOps2 hostOps2_sub hostOps2_fresh (W4 m hO)) ]
/-- @main is the run of the segments. -/
theorem main_run (hO : Ok m) (c : Dev nD) : main (F := F) c = Pipeline.Seg.run (segs m hO) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. At the compiled mesh, from any memory with zero counters whose two index tables name rows of their
    tables: every weakly fair execution of @main terminates, nothing faulting, and every unscoped buffer ends at the
    last boundary's contents `W5`. -/
theorem run_all (hO : Ok m) : θ_run defs (onTc (τ := τ) (main (F := F))) ⟨m, fun _ => 0, ρ⟩
    (fun r => ∀ c : Dev nD, ∀ b ∈ Pipeline.ucRefs τ sig, r.2.mem (((c : Thread nD τ)).1, b) = W5 m hO c b) :=
  Pipeline.θ_run_regions_kit (pcfgs (F := F)) (adm m hO) (pdats m hO) () (cellOf_inj (adm m hO)) emb₁ defs₀ 𝒱₀ L lv m ρ main (segs m hO)
    (fun c Q => by rw [main_run m hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hO)
    (hch := ⟨fun _ => .rfl, fun _ => .rfl, fun _ => .rfl, fun _ => .rfl, fun _ => .rfl, fun c => by
      show iprop(StableHlo.held (c : Thread nD τ) (Pipeline.ucRefs τ sig) (W5 m hO c) ∗ R c) ⊢ _
      iintro ⟨Hh, Hp, Ho⟩
      isplitl [Hh Hp]
      · isplitl [Hh] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m hO c b)
    (hfin := fun c s' => by
      iintro ⟨⟨Hh, -⟩, HSI⟩
      unfold StableHlo.held
      imodintro
      iapply (pointsTo_read_all (Pipeline.ucRefs τ sig) (fun b => (((c : Thread nD τ)).1, b)) (W5 m hO c) s')
      isplitl [Hh] <;> iassumption)
    (hQ := fun s h c => h c)

end Cert.KernelIdeal.Run

end
-- ==== Proof.IdealTables.lean ====
/-
  The two index tables name rows of their tables. From the precondition: every entry of the user table is at least 0
  and below 100000, every entry of the item table at least 0 and below 50000 (as signed words), so as natural numbers
  they are below the heights; and from that, the pipeline's side condition of the tables: at every grid point the row
  block each table names lies inside its array.
-/
import proofs.«412117_j10952166604876_2_alg».proof.Proof.IdealRun
import proofs.«412117_j10952166604876_2_alg».proof.Proof.Gen.Pre_finite_inputs
import proofs.«412117_j10952166604876_2_alg».proof.Proof.LibPreDecode

noncomputable section

namespace Cert.KernelIdeal.Tables

open Idealize.ShloMosaic Idealize.ShloMosaic.TcCoe Idealize.SL.Sem
open Cert.KernelIdeal.Gen Cert.KernelIdeal.Run

variable {F : FTy → Type} [FloatOps F]
variable (m : (ℓ : Loc nD τ sig) → Buf (Elt F) ℓ)

/-- A 32-bit word whose signed value lies in [0, n), for a bound word `c` of signed value `n`, has unsigned value
    below `n`: a signed value that is not negative is the unsigned value. -/
theorem toNat_lt_of_signed_range (w c : BitVec 32) (n : ℕ) (hc : c.toInt = (n : ℤ))
    (h0 : (0#32 : BitVec 32).toInt ≤ w.toInt) (h1 : w.toInt < c.toInt) : w.toNat < n := by
  have hz : (0#32 : BitVec 32).toInt = 0 := by decide
  rw [hz] at h0
  rw [hc] at h1
  have hw := w.isLt
  rw [BitVec.toInt_eq_toNat_cond] at h0 h1
  split at h0 <;> omega

/-- From the precondition on one device: as natural numbers the user table's entries are below 100000 and the item
    table's below 50000. -/
theorem rows_of_pre (c : Dev nD)
    (h : Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = (fun _ => 1#1)) :
    (∀ j : S16384.Idx, ((m ((c.tc : Thread nD τ).loc main_arg5) : S16384.Idx → BitVec 32) j).toNat < 100000)
      ∧ (∀ j : S16384.Idx, ((m ((c.tc : Thread nD τ).loc main_arg6) : S16384.Idx → BitVec 32) j).toNat < 50000) := by
  -- the predicate is a left-nested conjunction of seven "all"s; the last four speak of the two tables
  have h' := h
  dsimp only [Cert.Pre_finite_inputs.fn, Cert.Pre_finite_inputs.fn_part1] at h'
  have hi_lt := Cert.PreDecode.andi_right h'
  have h6 := Cert.PreDecode.andi_left h'
  have hi_ge := Cert.PreDecode.andi_right h6
  have h5 := Cert.PreDecode.andi_left h6
  have hu_lt := Cert.PreDecode.andi_right h5
  have h4 := Cert.PreDecode.andi_left h5
  have hu_ge := Cert.PreDecode.andi_right h4
  refine ⟨fun j => ?_, fun j => ?_⟩
  · exact toNat_lt_of_signed_range _ (100000#32) 100000 (by decide)
      (Cert.PreDecode.sge_of_reduce _ _ _ _ _ _ hu_ge j) (Cert.PreDecode.slt_of_reduce _ _ _ _ _ _ hu_lt j)
  · exact toNat_lt_of_signed_range _ (50000#32) 50000 (by decide)
      (Cert.PreDecode.sge_of_reduce _ _ _ _ _ _ hi_ge j) (Cert.PreDecode.slt_of_reduce _ _ _ _ _ _ hi_lt j)

/-- The tables' contents as plain arrays of words. -/
abbrev userTbl : S16384.Idx → BitVec 32 := tbl m 0
abbrev itemTbl : S16384.Idx → BitVec 32 := tbl m 1

theorem userTbl_eq : userTbl m = m (((0 : Dev nD).tc : Thread nD τ).loc main_arg5) := rfl
theorem itemTbl_eq : itemTbl m = m (((0 : Dev nD).tc : Thread nD τ).loc main_arg6) := rfl

/-- A block of one row, at row `r` of the array of 100000 rows of one 64-wide line each, lies inside the array when
    `r < 100000`: along the rows `(r + 1) · 1 ≤ 100000`, along the two other axes the block is the whole extent. -/
theorem rowBlock_inside_user (r : ℕ) (hr : r < 100000) (a : Fin 3) :
    ((![r, 0, 0] : Fin 3 → ℕ) a + 1) * S1x1x64.size a ≤ S100000x1x64.size a := by
  match a with
  | ⟨0, _⟩ => show (r + 1) * 1 ≤ 100000; omega
  | ⟨1, _⟩ => show (0 + 1) * 1 ≤ 1; omega
  | ⟨2, _⟩ => show (0 + 1) * 64 ≤ 64; omega

/-- The same for the array of 50000 rows: a block of one row at row `r < 50000` lies inside it. -/
theorem rowBlock_inside_item (r : ℕ) (hr : r < 50000) (a : Fin 3) :
    ((![r, 0, 0] : Fin 3 → ℕ) a + 1) * S1x1x64.size a ≤ S50000x1x64.size a := by
  match a with
  | ⟨0, _⟩ => show (r + 1) * 1 ≤ 50000; omega
  | ⟨1, _⟩ => show (0 + 1) * 1 ≤ 1; omega
  | ⟨2, _⟩ => show (0 + 1) * 64 ≤ 64; omega

/-- The block the first window's index map names at a grid point is (t, 0, 0), `t` the user table's word at some
    index (the index is the grid coordinate; which one does not matter here). -/
theorem userBlock_eq (pf : pre1.Contents (Elt F)) (i : grid1.Coords) :
    ∃ j : S16384.Idx, cc1_transform_0 k1_off1_inb numel1_S1 pf i = ![((pf 0 : S16384.Idx → BitVec 32) j).toNat, 0, 0] :=
  ⟨_, rfl⟩

/-- The same for the second window and the item table. -/
theorem itemBlock_eq (pf : pre1.Contents (Elt F)) (i : grid1.Coords) :
    ∃ j : S16384.Idx, cc1_transform_1 k1_off1_inb numel1_S1 pf i = ![((pf 1 : S16384.Idx → BitVec 32) j).toNat, 0, 0] :=
  ⟨_, rfl⟩

/-- Whatever the tables hold, if every word of the first is below 100000 and every word of the second below 50000,
    every block the two index maps name lies inside its array; the elements are one word wide, so a transfer's ends
    are word-exact. -/
theorem ok1_of_rows (pf : pre1.Contents (Elt F))
    (hu : ∀ j : S16384.Idx, ((pf 0 : S16384.Idx → BitVec 32) j).toNat < 100000)
    (hi : ∀ j : S16384.Idx, ((pf 1 : S16384.Idx → BitVec 32) j).toNat < 50000) : ok1 pf := by
  refine ⟨fun i => ⟨fun a => ?_, Or.inl rfl⟩, fun i => ⟨fun a => ?_, Or.inl rfl⟩⟩
  · obtain ⟨j, e⟩ := userBlock_eq pf i
    rw [e]; exact rowBlock_inside_user _ (hu j) a
  · obtain ⟨j, e⟩ := itemBlock_eq pf i
    rw [e]; exact rowBlock_inside_item _ (hi j) a

/-- Entries below the heights give the pipeline's side condition. -/
theorem ok_of_rows (hu : ∀ j, (userTbl m j).toNat < 100000) (hi : ∀ j, (itemTbl m j).toNat < 50000) : Ok m :=
  ok1_of_rows (tbl m) hu hi

end Cert.KernelIdeal.Tables

end
-- ==== Proof.IdealFrame.lean ====
/-
  What the run gives the certificate. No item writes an argument array (the host stretches write their own results, the
  two regions their output arrays), so each argument ends as launched: the frame. And the result array ends at the last
  boundary's contents. Both under the tables' side condition, which the precondition gives.
-/
import proofs.«412117_j10952166604876_2_alg».proof.Proof.IdealRun
import proofs.«412117_j10952166604876_2_alg».proof.Proof.IdealTables

set_option maxRecDepth 16384

noncomputable section

namespace Cert.KernelIdeal.Run

open Idealize.ShloMosaic Idealize.ShloMosaic.TcCoe Idealize.SL.Sem
open Cert.KernelIdeal.Gen Cert.KernelIdeal.Bodies Cert.KernelIdeal.Tables

variable {F : FTy → Type} [FloatOps F]
variable (m : (ℓ : Loc nD τ sig) → Buf (Elt F) ℓ) (ρ : Dev nD → PrngReg)

/-- A buffer that no host operation writes and that is neither region's array holds its launch contents at the end. -/
theorem W5_kept (hO : Ok m) (c : Dev nD) (b : Ref sig .tc) (h0 : b ∉ hostOps0_W) (h1 : b ∉ hostOps1_W) (h2 : b ∉ hostOps2_W)
    (hp : ∀ w, Pipeline.arrRef spec0 w ≠ b) (hd : ∀ w, Pipeline.arrRef spec1 w ≠ b) :
    W5 m hO c (Proc.devRef .tc b) = m ((c : Thread nD τ).loc b) :=
  calc W5 m hO c (Proc.devRef .tc b)
    _ = W4 m hO c (Proc.devRef .tc b) := StableHlo.after_of_writes_sub hostOps2 _ hostOps2_writes h2
    _ = W3 m c (Proc.devRef .tc b) := W4_of_ne m hO c b hd
    _ = m ((c : Thread nD τ).loc b) := V3_kept m c b h0 h1 hp

/-- The side condition of the tables from the precondition. -/
theorem ok_of_pre
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = (fun _ => 1#1)) : Ok m :=
  ok_of_rows m (rows_of_pre m 0 (h 0)).1 (rows_of_pre m 0 (h 0)).2

/-- THE FRAME, at any float instance: every weakly fair execution terminates, nothing faulting, the seven argument
    arrays as launched. -/
theorem frame (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_kept m hO c main_arg0 (by decide) (by decide) (by decide) (by decide) (by decide)),
     (h c _ (mem_uc main_arg1 (by decide))).trans (W5_kept m hO c main_arg1 (by decide) (by decide) (by decide) (by decide) (by decide)),
     (h c _ (mem_uc main_arg2 (by decide))).trans (W5_kept m hO c main_arg2 (by decide) (by decide) (by decide) (by decide) (by decide)),
     (h c _ (mem_uc main_arg3 (by decide))).trans (W5_kept m hO c main_arg3 (by decide) (by decide) (by decide) (by decide) (by decide)),
     (h c _ (mem_uc main_arg4 (by decide))).trans (W5_kept m hO c main_arg4 (by decide) (by decide) (by decide) (by decide) (by decide)),
     (h c _ (mem_uc main_arg5 (by decide))).trans (W5_kept m hO c main_arg5 (by decide) (by decide) (by decide) (by decide) (by decide)),
     (h c _ (mem_uc main_arg6 (by decide))).trans (W5_kept m hO c main_arg6 (by decide) (by decide) (by decide) (by decide) (by decide))⟩)
    (run_all m ρ hO)

/-- The run with the result named: the result array ends at the last boundary's contents, the arguments as launched. -/
theorem run_value (hO : Ok m) : θ_run defs (onTc (τ := τ) (main (F := F))) ⟨m, fun _ => 0, ρ⟩ (fun r => ∀ c : Dev nD,
      r.2.mem ((c.tc : Thread nD τ).loc main_v46) = W5 m hO c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v46 (by decide)),
     (h c _ (mem_uc main_arg0 (by decide))).trans (W5_kept m hO c main_arg0 (by decide) (by decide) (by decide) (by decide) (by decide)),
     (h c _ (mem_uc main_arg1 (by decide))).trans (W5_kept m hO c main_arg1 (by decide) (by decide) (by decide) (by decide) (by decide)),
     (h c _ (mem_uc main_arg2 (by decide))).trans (W5_kept m hO c main_arg2 (by decide) (by decide) (by decide) (by decide) (by decide)),
     (h c _ (mem_uc main_arg3 (by decide))).trans (W5_kept m hO c main_arg3 (by decide) (by decide) (by decide) (by decide) (by decide)),
     (h c _ (mem_uc main_arg4 (by decide))).trans (W5_kept m hO c main_arg4 (by decide) (by decide) (by decide) (by decide) (by decide)),
     (h c _ (mem_uc main_arg5 (by decide))).trans (W5_kept m hO c main_arg5 (by decide) (by decide) (by decide) (by decide) (by decide)),
     (h c _ (mem_uc main_arg6 (by decide))).trans (W5_kept m hO c main_arg6 (by decide) (by decide) (by decide) (by decide) (by decide))⟩)
    (run_all m ρ hO)

end Cert.KernelIdeal.Run

end
-- ==== Proof.IdealNames.lean ====
/-
  Names, at the extended reals, for the arrays the value argument speaks of, each typed by its literal shape: the four
  layer tables as the mean pool finds them, the pooled table it leaves, the user and item tables the dot product is
  handed, the dot product's output, and the program's result.
-/
import proofs.«412117_j10952166604876_2_alg».proof.Proof.IdealTables

noncomputable section

namespace Cert.KernelIdeal.Names

open Idealize.ShloMosaic Idealize.ShloMosaic.TcCoe Idealize.SL.Sem
open Cert.KernelIdeal.Gen Cert.KernelIdeal.Run

variable (m : (ℓ : Loc nD τ sig) → Buf (Elt Ideal) ℓ)

/-- The four layer tables when the mean pool is entered. -/
abbrev layerA (c : Dev nD) : S150000x64.Idx → EReal := Run.V1 m c main_v0
abbrev layerB (c : Dev nD) : S150000x64.Idx → EReal := Run.V1 m c main_v13
abbrev layerC (c : Dev nD) : S150000x64.Idx → EReal := Run.V1 m c main_v26
abbrev layerD (c : Dev nD) : S150000x64.Idx → EReal := Run.V1 m c main_v39
/-- The pooled table the mean pool leaves. -/
abbrev pooledTbl (c : Dev nD) : S150000x64.Idx → EReal := Run.V2 m c main_v40
/-- The user and item tables the dot product is entered with (a unit middle axis each). -/
abbrev userRows (c : Dev nD) : S100000x1x64.Idx → EReal := Run.V3 m c main_v43
abbrev itemRows (c : Dev nD) : S50000x1x64.Idx → EReal := Run.V3 m c main_v44
/-- The dot product's output and the program's result. -/
abbrev dotOut (hO : Ok m) (c : Dev nD) : S16384x1x1.Idx → EReal := Run.V4 m hO c main_v45
abbrev result (hO : Ok m) (c : Dev nD) : S16384.Idx → EReal := Run.W5 m hO c main_v46

end Cert.KernelIdeal.Names

end
-- ==== Proof.Spec.lean ====
/-
  What the program computes, stated once over the extended reals. Four layer tables `E0 … E3` of 150000 rows and 64
  columns (users first, then items) are averaged entry by entry — added in order, the sum times one quarter — and the
  prediction for a pair is the inner product over the 64 columns of the pair's user row and item row of that average.
-/
import Idealize.ShloMosaic.PureOps.Ideal
import Idealize.ShloMosaic.Lib.ValueIdx

noncomputable section

namespace Cert.Spec

open Idealize.ShloMosaic Idealize.ShloMosaic.ValueIdx

/-- Entry `(r, d)` of the average of the four layer tables: their sum, taken in order, times one quarter. -/
def pool (E0 E1 E2 E3 : (⟨2, ![150000, 64]⟩ : Shape).Idx → EReal) (r : Fin 150000) (d : Fin 64) : EReal :=
  (((E0 (ix2 r d) + E1 (ix2 r d)) + E2 (ix2 r d)) + E3 (ix2 r d)) * ((1 / 4 : ℝ) : EReal)

/-- A user's row of the stacked table is its own number; an item's row comes after the 100000 user rows. -/
def userRow (r : Fin 100000) : Fin 150000 := ⟨r.val, by omega⟩
def itemRow (r : Fin 50000) : Fin 150000 := ⟨100000 + r.val, by omega⟩

/-- The prediction for each of the 16384 pairs, given the user row `ur b` and the item row `ir b` of pair `b`: the sum
    over the columns of the products of the two averaged rows' entries. -/
def score (E0 E1 E2 E3 : (⟨2, ![150000, 64]⟩ : Shape).Idx → EReal) (ur : Fin 16384 → Fin 100000) (ir : Fin 16384 → Fin 50000) :
    (⟨1, ![16384]⟩ : Shape).Idx → EReal :=
  fun j => ∑ d : Fin 64, pool E0 E1 E2 E3 (userRow (ur (j 0))) d * pool E0 E1 E2 E3 (itemRow (ir (j 0))) d

/-- The row a table entry names: the entry's value as a natural number, given that it is below the table's height. -/
def rowOf {n : Nat} (w : (⟨1, ![16384]⟩ : Shape).Idx → BitVec 32) (h : ∀ j, (w j).toNat < n) (b : Fin 16384) : Fin n :=
  ⟨(w (ix1 b)).toNat, h _⟩

end Cert.Spec

end
-- ==== Proof.IdealPoolValue.lean ====
/-
  The pooled table after the mean-pool region, entry by entry: the region's 25 write-backs of 6000 rows each tile the
  150000-row output array, block `t` holding the body's result on rows `6000 t … 6000 t + 5999` of the four layer tables,
  and the body's result at an entry is the four tables' entries there added in order, times one quarter.
-/
import proofs.«412117_j10952166604876_2_alg».proof.Proof.IdealNames
import proofs.«412117_j10952166604876_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.PoolValue

open Idealize.ShloMosaic Idealize.ShloMosaic.TcCoe Idealize.SL.Sem Idealize.ShloMosaic.ValueIdx
open Idealize.ShloMosaic.Pipeline (Dat)
open Cert.KernelIdeal.Gen Cert.KernelIdeal.Bodies Cert.KernelIdeal.Run Cert.KernelIdeal.Tables Cert.KernelIdeal.Names

variable (m : (ℓ : Loc nD τ sig) → Buf (Elt Ideal) ℓ)

/-- The zero offsets of the whole-block rectangle, as the constant function. -/
theorem zero_offsets : (![0, 0] : Fin 2 → Nat) = fun _ => 0 := funext fun a => by fin_cases a <;> rfl

/-- The pattern the body multiplies by denotes one quarter. -/
theorem quarter : Ideal.ofBits .f32 0x3E800000#32 = ((1 / 4 : ℝ) : EReal) := by
  simp [Ideal.ofBits, Ideal.ieee, -EReal.coe_mul]; norm_num

/-- The average of four tables, entry by entry: their sum, in order, times one quarter. -/
def avg (E0 E1 E2 E3 : S150000x64.Idx → EReal) : S150000x64.Idx → EReal :=
  fun i => (((E0 i + E1 i) + E2 i) + E3 i) * ((1 / 4 : ℝ) : EReal)

/-- The body's result at an entry of the block: the four blocks' entries there added in order, times one quarter. -/
theorem pay_apply (x0 x1 x2 x3 : Vec Ideal S6000x64 .f32) (j : S6000x64.Idx) :
    k0_pay1 x0 x1 x2 x3 j = (((x0 j + x1 j) + x2 j) + x3 j) * ((1 / 4 : ℝ) : EReal) := by
  unfold k0_pay1
  simp only [shapeCast_self]
  rw [mulf_apply, addf_apply, addf_apply, addf_apply, broadcast_apply]
  rw [show Scalar.ofBits (F := Ideal) .f32 0x3E800000#32 = Ideal.ofBits .f32 0x3E800000#32 from rfl, quarter]

/-- The body's result at entry `j` of the block, when each input block's entry `j` is its table's entry `i`: the
    average of the four tables at `i`. -/
theorem pay_at (E0 E1 E2 E3 : S150000x64.Idx → EReal) (x0 x1 x2 x3 : Vec Ideal S6000x64 .f32) (j : S6000x64.Idx)
    (i : S150000x64.Idx) (h0 : x0 j = E0 i) (h1 : x1 j = E1 i) (h2 : x2 j = E2 i) (h3 : x3 j = E3 i) :
    k0_pay1 x0 x1 x2 x3 j = avg E0 E1 E2 E3 i := by
  rw [pay_apply, h0, h1, h2, h3]; rfl

/-- The index maps over the grid: at point `t` every window's block is block `(t, 0)` of its array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

section Region

variable (V : (c : Dev nD) → (b : Ref sig .tc) → Buf (Elt Ideal) ((c : Thread nD τ).loc b))

/-- What point `t` writes back is block `t` of the average of the four tables the region was entered with. -/
theorem flushed_eq (c : Dev nD) (t : Fin cfg0.N) :
    (poolDat V c).flushed 4 t
      = ((cfg0.win 4).blk t).view.read (Elt Ideal) (avg (V c main_v0) (V c main_v13) (V c main_v26) (V c main_v39)) := by
  show (cfg0.win 4).cut (grid0.coords t) ((poolDat V c).after 4 t) = _
  rw [poolDat_after4]
  unfold pooled
  rw [View.canon_unit_zero zero_offsets]
  simp only [View.ld_unit_zero (S := S6000x64) zero_offsets]
  obtain ⟨a0, a1, b0, b1, c0, c1, d0, d1, o0, o1⟩ := idx_facts t
  funext j
  show k0_pay1 (blk0 V c 0 t) (blk0 V c 1 t) (blk0 V c 2 t) (blk0 V c 3 t) j
      = avg (V c main_v0) (V c main_v13) (V c main_v26) (V c main_v39) (((cfg0.win 4).blk t).view.emb j)
  have h0 : ((cfg0.win 0).blk t).view.emb j = ((cfg0.win 4).blk t).view.emb j := by
    funext a; apply Fin.ext
    match a with
    | ⟨0, _⟩ =>
      show win0_0.index t (0 : Fin 2) * 6000 + 1 * (j 0).val = win0_4.index t (0 : Fin 2) * 6000 + 1 * (j 0).val
      rw [a0, o0]
    | ⟨1, _⟩ =>
      show win0_0.index t (1 : Fin 2) * 64 + 1 * (j 1).val = win0_4.index t (1 : Fin 2) * 64 + 1 * (j 1).val
      rw [a1, o1]
  have h1 : ((cfg0.win 1).blk t).view.emb j = ((cfg0.win 4).blk t).view.emb j := by
    funext a; apply Fin.ext
    match a with
    | ⟨0, _⟩ =>
      show win0_1.index t (0 : Fin 2) * 6000 + 1 * (j 0).val = win0_4.index t (0 : Fin 2) * 6000 + 1 * (j 0).val
      rw [b0, o0]
    | ⟨1, _⟩ =>
      show win0_1.index t (1 : Fin 2) * 64 + 1 * (j 1).val = win0_4.index t (1 : Fin 2) * 64 + 1 * (j 1).val
      rw [b1, o1]
  have h2 : ((cfg0.win 2).blk t).view.emb j = ((cfg0.win 4).blk t).view.emb j := by
    funext a; apply Fin.ext
    match a with
    | ⟨0, _⟩ =>
      show win0_2.index t (0 : Fin 2) * 6000 + 1 * (j 0).val = win0_4.index t (0 : Fin 2) * 6000 + 1 * (j 0).val
      rw [c0, o0]
    | ⟨1, _⟩ =>
      show win0_2.index t (1 : Fin 2) * 64 + 1 * (j 1).val = win0_4.index t (1 : Fin 2) * 64 + 1 * (j 1).val
      rw [c1, o1]
  have h3 : ((cfg0.win 3).blk t).view.emb j = ((cfg0.win 4).blk t).view.emb j := by
    funext a; apply Fin.ext
    match a with
    | ⟨0, _⟩ =>
      show win0_3.index t (0 : Fin 2) * 6000 + 1 * (j 0).val = win0_4.index t (0 : Fin 2) * 6000 + 1 * (j 0).val
      rw [d0, o0]
    | ⟨1, _⟩ =>
      show win0_3.index t (1 : Fin 2) * 64 + 1 * (j 1).val = win0_4.index t (1 : Fin 2) * 64 + 1 * (j 1).val
      rw [d1, o1]
  exact pay_at (V c main_v0) (V c main_v13) (V c main_v26) (V c main_v39)
    (blk0 V c 0 t) (blk0 V c 1 t) (blk0 V c 2 t) (blk0 V c 3 t) j (((cfg0.win 4).blk t).view.emb j)
    (congrArg (V c main_v0) h0) (congrArg (V c main_v13) h1) (congrArg (V c main_v26) h2) (congrArg (V c main_v39) h3)

/-- An entry of the array is in point `t`'s block iff each coordinate is in the block's range on its axis. -/
theorem mem_blk (t : Fin cfg0.N) (i : S150000x64.Idx) :
    i ∈ ((cfg0.win 4).blk t).view.set
      ↔ ∀ a : Fin 2, win0_4.index t a * S6000x64.size a ≤ (i a).val ∧ (i a).val < win0_4.index t a * S6000x64.size a + S6000x64.size a := by
  show i ∈ ((View.whole main_v40).slice (win0_4.rect t)).set ↔ _
  rw [View.set_slice_whole, Rect.mem_set_unit]
  exact Iff.rfl

/-- Every entry of the array is in some point's block: row `r` in that of point `r / 6000`. -/
theorem covered (i : S150000x64.Idx) :
    ∃ t : Fin cfg0.N, (cfg0.win 4).flush t = true ∧ i ∈ ((cfg0.win 4).blk t).view.set := by
  have hi0 : (i 0).val < 150000 := (i 0).isLt
  have hi1 : (i 1).val < 64 := (i 1).isLt
  have ht : (i 0).val / 6000 < cfg0.N := by show _ < grid0.N; rw [N_0]; omega
  obtain ⟨-, -, -, -, -, -, -, -, o0, o1⟩ := idx_facts ⟨(i 0).val / 6000, ht⟩
  refine ⟨⟨(i 0).val / 6000, ht⟩, flush0_4 _, ?_⟩
  rw [mem_blk]
  intro a
  match a with
  | ⟨0, _⟩ =>
    show win0_4.index ⟨(i 0).val / 6000, ht⟩ (0 : Fin 2) * 6000 ≤ (i 0).val
      ∧ (i 0).val < win0_4.index ⟨(i 0).val / 6000, ht⟩ (0 : Fin 2) * 6000 + 6000
    rw [o0]; show (i 0).val / 6000 * 6000 ≤ (i 0).val ∧ (i 0).val < (i 0).val / 6000 * 6000 + 6000; omega
  | ⟨1, _⟩ =>
    show win0_4.index ⟨(i 0).val / 6000, ht⟩ (1 : Fin 2) * 64 ≤ (i 1).val
      ∧ (i 1).val < win0_4.index ⟨(i 0).val / 6000, ht⟩ (1 : Fin 2) * 64 + 64
    rw [o1]; omega

/-- The output array after the region is the average of the four tables the region was entered with. -/
theorem final (c : Dev nD) :
    (poolDat V c).arrAt 4 cfg0.N = avg (V c main_v0) (V c main_v13) (V c main_v26) (V c main_v39) :=
  (poolDat V c).arrAt_eq_of_cover 4 _ (fun t _ => flushed_eq V c t) covered

end Region

/-- After the pool, entry `(r, d)` of its output array is the specification's average of the four layer tables the region
    was entered with. -/
theorem pooled_entry (c : Dev nD) (r : Fin 150000) (d : Fin 64) :
    pooledTbl m c (ix2 r d) = Cert.Spec.pool (layerA m c) (layerB m c) (layerC m c) (layerD m c) r d := by
  rw [show pooledTbl m c = (poolDat (Run.V1 m) c).arrAt 4 cfg0.N from Run.W2_arr m c 4, final]
  rfl

end Cert.KernelIdeal.PoolValue

end
-- ==== Proof.IdealDotValue.lean ====
/-
  The output array after the gathered-dot-product region, entry by entry: the region's 16384 write-backs of one number
  each tile the output array, block `b` holding the body's result on the two rows its tables name at `b`, and that
  result is the sum over the 64 columns of the products of the rows' entries.
-/
import proofs.«412117_j10952166604876_2_alg».proof.Proof.IdealNames
import proofs.«412117_j10952166604876_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DotValue

open Idealize.ShloMosaic Idealize.ShloMosaic.TcCoe Idealize.SL.Sem Idealize.ShloMosaic.ValueIdx
open Idealize.ShloMosaic.Pipeline (Dat)
open Cert.KernelIdeal.Gen Cert.KernelIdeal.Bodies Cert.KernelIdeal.Run Cert.KernelIdeal.Tables Cert.KernelIdeal.Names

variable (m : (ℓ : Loc nD τ sig) → Buf (Elt Ideal) ℓ)

/-! ## The body's arithmetic at an index -/

/-- The index of the 1 × 1 × 64 row that lies over the one index of the reduced 1 × 1 shape with column `d` put back
    is `(0, 0, d)`. -/
theorem lift_lane (v w : Fin 1) (d : Fin 64) : reduces_S1x1x64_S1x1.lift (ix2 v w) d = ix3 (0 : Fin 1) (0 : Fin 1) d := by
  funext c
  apply Fin.ext
  have hv : v.val = 0 := by omega
  have hw : w.val = 0 := by omega
  match c with
  | ⟨0, _⟩ => exact hv
  | ⟨1, _⟩ => exact hw
  | ⟨2, _⟩ => rfl

/-- One term of the column sum: the product of the two rows' entries at column `d` (the casts to the same shape are the
    identity). -/
theorem lane_term (x0 x1 : Vec Ideal S1x1x64 .f32) (v w : Fin 1) (d : Fin 64) :
    (mulf (shapeCast S1x1x64 x0 shapeCasts_S1x1x64_S1x1x64 : FVec Ideal S1x1x64 .f32)
        (shapeCast S1x1x64 x1 shapeCasts_S1x1x64_S1x1x64 : FVec Ideal S1x1x64 .f32)) (reduces_S1x1x64_S1x1.lift (ix2 v w) d)
      = x0 (ix3 0 0 d) * x1 (ix3 0 0 d) := by
  rw [lift_lane, mulf_apply, shapeCast_self, shapeCast_self]

/-- The body's result on two rows: the cast from 1 × 1 to 1 × 1 × 1 reads the one reduced entry, and over the extended
    reals the reduction along the last axis is the sum over the 64 columns of the products of the rows' entries. -/
theorem dot_payload (x0 x1 : Vec Ideal S1x1x64 .f32) (u v w : Fin 1) :
    (k1_pay1 (F := Ideal) x0 x1) (ix3 u v w) = ∑ d : Fin 64, x0 (ix3 0 0 d) * x1 (ix3 0 0 d) := by
  unfold k1_pay1
  refine (shapeCast_ab_1ab_apply _ _ u v w).trans ?_
  refine (Ideal.multiReduction_add_single _ 0x00000000#32 reduces_S1x1x64_S1x1 (.inl rfl) rfl (ix2 v w)).trans ?_
  exact Finset.sum_congr rfl fun (d : Fin 64) _ => lane_term x0 x1 v w d

theorem zeros3 : (![0, 0, 0] : Fin 3 → Nat) = fun _ => 0 := funext fun a => by fin_cases a <;> rfl

/-- What the body leaves in its output block from two rows, at the block's one index: its one store covers the block,
    and its two loads read the rows whole. -/
theorem dotted_apply (x0 x1 : Vec Ideal S1x1x64 .f32) (y : S1x1x1.Idx) :
    dotted x0 x1 y = ∑ d : Fin 64, x0 (ix3 0 0 d) * x1 (ix3 0 0 d) := by
  obtain ⟨u, v, w, rfl⟩ : ∃ (u v w : Fin 1), y = ix3 u v w := ⟨y 0, y 1, y 2, eq_ix3 y⟩
  unfold dotted
  rw [View.canon_unit_zero zeros3]
  simp only [View.ld_unit_zero (S := S1x1x64) zeros3]
  exact dot_payload x0 x1 u v w

section AnyTables

/- Everything below is stated at ANY contents `V` of the unscoped buffers at the region's entry and ANY admissible
   contents `a` of the two index tables: only the last theorem of the file takes them to be the run's. -/
variable (V : (c : Dev nD) → (b : Ref sig .tc) → Buf (Elt Ideal) ((c : Thread nD τ).loc b))
variable (a : (pcfg1 (F := Ideal)).Adm)

/-! ## The grid and the index maps -/

theorem lt_N (t : Fin (cfg1 a).N) : t.val < 16384 := N_1 ▸ t.isLt

/-- On the one-axis grid of 16384 points the coordinate of point `t` is `t`. -/
theorem coords0 (t : Fin (cfg1 a).N) : (((cfg1 a).grid.coords t) 0).val = t.val := by
  have h := lt_N a t
  show t.val / 1 % 16384 = t.val
  omega

/-- The position the two row windows' index maps read their tables at is the grid coordinate. -/
theorem off_val (i : grid1.Coords) : (Scalar.indexCast (BitVec.ofNat 32 (i 0).val)).toNat = (i 0).val :=
  congrFun (k1_off1_eq i) 0

/-- The one-word rectangle at offset `t` of a 16384-entry table holds entry `t`. -/
theorem table_pos (t : Fin (cfg1 a).N) (off : Fin 1 → Nat) (hoff : off 0 = t.val)
    (inb : ∀ ax, off ax + S1.size ax ≤ S16384.size ax) (h1 : 0 < (Rect.unit (s := S16384) off S1.size inb).shape.numel) :
    (Rect.unit (s := S16384) off S1.size inb).emb (Shape.Idx.first h1) = ValueIdx.ix1 ⟨t.val, lt_N a t⟩ := by
  funext ax
  apply Fin.ext
  match ax with
  | ⟨0, _⟩ =>
    show off 0 + 1 * 0 = t.val
    omega

/-- The user window's block index at point `t`: the row the user table names at `t`, then zeros. -/
theorem user_index (t : Fin (cfg1 a).N) :
    ((cfg1 a).win 0).index t = ![((a.1 0 : S16384.Idx → BitVec 32) (ValueIdx.ix1 ⟨t.val, lt_N a t⟩)).toNat, 0, 0] := by
  funext ax
  match ax with
  | ⟨0, _⟩ =>
    exact congrArg (fun j => ((a.1 0 : S16384.Idx → BitVec 32) j).toNat) (table_pos a t _ ((off_val _).trans (coords0 a t)) _ _)
  | ⟨1, _⟩ => rfl
  | ⟨2, _⟩ => rfl

/-- The item window's block index at point `t`: the row the item table names at `t`, then zeros. -/
theorem item_index (t : Fin (cfg1 a).N) :
    ((cfg1 a).win 1).index t = ![((a.1 1 : S16384.Idx → BitVec 32) (ValueIdx.ix1 ⟨t.val, lt_N a t⟩)).toNat, 0, 0] := by
  funext ax
  match ax with
  | ⟨0, _⟩ =>
    exact congrArg (fun j => ((a.1 1 : S16384.Idx → BitVec 32) j).toNat) (table_pos a t _ ((off_val _).trans (coords0 a t)) _ _)
  | ⟨1, _⟩ => rfl
  | ⟨2, _⟩ => rfl

/-- The output window's block index at point `t` is `(t, 0, 0)`: `t` is below 2³², so the 32-bit word of it is `t`. -/
theorem out_index (t : Fin (cfg1 a).N) : ((cfg1 a).win 2).index t = ![t.val, 0, 0] := by
  have h := lt_N a t
  funext ax
  match ax with
  | ⟨0, _⟩ =>
    show (BitVec.ofNat 32 (((cfg1 a).grid.coords t) 0).val).toNat = t.val
    rw [coords0, BitVec.toNat_ofNat]; omega
  | ⟨1, _⟩ => rfl
  | ⟨2, _⟩ => rfl

/-- Every point writes its output block back: it is the last point, or the next point's block is another. -/
theorem out_flush (t : Fin (cfg1 a).N) : ((cfg1 a).win 2).flush t = true := by
  refine (Pipeline.Window.flush_out _ rfl t).mpr ?_
  have hN : (cfg1 a).grid.N = 16384 := N_1
  have ht := lt_N a t
  by_cases hl : t.val + 1 = (cfg1 a).grid.N
  · exact .inl hl
  · have hlt : t.val + 1 < (cfg1 a).grid.N := by omega
    refine .inr ⟨hlt, fun e => ?_⟩
    rw [out_index, out_index] at e
    have e0 : t.val + 1 = t.val := congrFun e 0
    omega

/-! ## The two rows a point reads, and what it writes back -/

/-- The two tables' arrays as the region finds them, typed by their shapes. -/
abbrev userArr (c : Dev nD) : S100000x1x64.Idx → EReal := V c main_v43
abbrev itemArr (c : Dev nD) : S50000x1x64.Idx → EReal := V c main_v44

variable (hu : ∀ j, ((a.1 0 : S16384.Idx → BitVec 32) j).toNat < 100000) (hi : ∀ j, ((a.1 1 : S16384.Idx → BitVec 32) j).toNat < 50000)

/-- The whole output array as ONE function of the two tables' arrays: entry `(b, ·, ·)` is the inner product over the 64
    columns of the user row and the item row the index tables name at `b`. -/
def gathered (c : Dev nD) : S16384x1x1.Idx → EReal := fun i =>
  ∑ d : Fin 64, userArr V c (ix3 ⟨((a.1 0 : S16384.Idx → BitVec 32) (ValueIdx.ix1 (i 0))).toNat, hu _⟩ 0 d)
    * itemArr V c (ix3 ⟨((a.1 1 : S16384.Idx → BitVec 32) (ValueIdx.ix1 (i 0))).toNat, hi _⟩ 0 d)

/-- The user window's block at point `t` is the user row the table names at `t`: an element of a block sits, on each axis,
    at the block index times the block's size plus its own coordinate. -/
theorem user_block (c : Dev nD) (t : Fin (cfg1 a).N) (d : Fin 64) :
    (blk1 V a c 0 t : S1x1x64.Idx → EReal) (ix3 0 0 d)
      = userArr V c (ix3 ⟨((a.1 0 : S16384.Idx → BitVec 32) (ValueIdx.ix1 ⟨t.val, lt_N a t⟩)).toNat, hu _⟩ 0 d) := by
  unfold blk1
  show userArr V c ((((cfg1 a).win 0).blk t).view.emb (ix3 0 0 d)) = _
  refine congrArg (userArr V c) ?_
  have e := user_index a t
  funext ax
  apply Fin.ext
  match ax with
  | ⟨0, _⟩ =>
    show ((cfg1 a).win 0).index t (0 : Fin 3) * 1 + 1 * 0 = _
    rw [e]; show ((a.1 0 : S16384.Idx → BitVec 32) _).toNat * 1 + 1 * 0 = ((a.1 0 : S16384.Idx → BitVec 32) _).toNat; omega
  | ⟨1, _⟩ =>
    show ((cfg1 a).win 0).index t (1 : Fin 3) * 1 + 1 * 0 = 0
    rw [e]; rfl
  | ⟨2, _⟩ =>
    show ((cfg1 a).win 0).index t (2 : Fin 3) * 64 + 1 * d.val = d.val
    rw [e]; show 0 * 64 + 1 * d.val = d.val; omega

/-- The item window's block at point `t` is the item row the table names at `t`. -/
theorem item_block (c : Dev nD) (t : Fin (cfg1 a).N) (d : Fin 64) :
    (blk1 V a c 1 t : S1x1x64.Idx → EReal) (ix3 0 0 d)
      = itemArr V c (ix3 ⟨((a.1 1 : S16384.Idx → BitVec 32) (ValueIdx.ix1 ⟨t.val, lt_N a t⟩)).toNat, hi _⟩ 0 d) := by
  unfold blk1
  show itemArr V c ((((cfg1 a).win 1).blk t).view.emb (ix3 0 0 d)) = _
  refine congrArg (itemArr V c) ?_
  have e := item_index a t
  funext ax
  apply Fin.ext
  match ax with
  | ⟨0, _⟩ =>
    show ((cfg1 a).win 1).index t (0 : Fin 3) * 1 + 1 * 0 = _
    rw [e]; show ((a.1 1 : S16384.Idx → BitVec 32) _).toNat * 1 + 1 * 0 = ((a.1 1 : S16384.Idx → BitVec 32) _).toNat; omega
  | ⟨1, _⟩ =>
    show ((cfg1 a).win 1).index t (1 : Fin 3) * 1 + 1 * 0 = 0
    rw [e]; rfl
  | ⟨2, _⟩ =>
    show ((cfg1 a).win 1).index t (2 : Fin 3) * 64 + 1 * d.val = d.val
    rw [e]; show 0 * 64 + 1 * d.val = d.val; omega

/-- The one element of the output's block at point `t` sits at `(t, 0, 0)` of the array. -/
theorem out_emb (t : Fin (cfg1 a).N) (y : S1x1x1.Idx) :
    (((cfg1 a).win 2).blk t).view.emb y = (ix3 ⟨t.val, lt_N a t⟩ 0 0 : S16384x1x1.Idx) := by
  have e := out_index a t
  have h0 : (y 0).val = 0 := by have h : (y 0).val < 1 := (y 0).isLt; omega
  have h1 : (y 1).val = 0 := by have h : (y 1).val < 1 := (y 1).isLt; omega
  have h2 : (y 2).val = 0 := by have h : (y 2).val < 1 := (y 2).isLt; omega
  funext ax
  apply Fin.ext
  match ax with
  | ⟨0, _⟩ =>
    show ((cfg1 a).win 2).index t (0 : Fin 3) * 1 + 1 * (y 0).val = t.val
    rw [e, h0]; show t.val * 1 + 1 * 0 = t.val; omega
  | ⟨1, _⟩ =>
    show ((cfg1 a).win 2).index t (1 : Fin 3) * 1 + 1 * (y 1).val = 0
    rw [e, h1]; rfl
  | ⟨2, _⟩ =>
    show ((cfg1 a).win 2).index t (2 : Fin 3) * 1 + 1 * (y 2).val = 0
    rw [e, h2]; rfl

/-- What point `t` writes back is block `t` of `gathered`: the body's result on the two rows the tables name at `t`. -/
theorem written_back (c : Dev nD) (t : Fin (cfg1 a).N) :
    (dotDat V a c).flushed 2 t = (((cfg1 a).win 2).blk t).view.read (Elt Ideal) (gathered V a hu hi c) := by
  show ((cfg1 a).win 2).cut ((cfg1 a).grid.coords t) ((dotDat V a c).after 2 t) = _
  rw [dotDat_after2]
  funext y
  show dotted (blk1 V a c 0 t) (blk1 V a c 1 t) y = gathered V a hu hi c ((((cfg1 a).win 2).blk t).view.emb y)
  refine (dotted_apply (blk1 V a c 0 t) (blk1 V a c 1 t) y).trans ?_
  refine Eq.trans ?_ (congrArg (gathered V a hu hi c) (out_emb a t y)).symm
  exact Finset.sum_congr rfl fun d _ => congrArg₂ (· * ·) (user_block V a hu c t d) (item_block V a hi c t d)

/-- Entry `(t, 0, 0)` of the array lies in the block of point `t`. -/
theorem mem_out_blk (t : Fin (cfg1 a).N) :
    (ix3 ⟨t.val, lt_N a t⟩ 0 0 : S16384x1x1.Idx) ∈ (((cfg1 a).win 2).blk t).view.set := by
  rw [← out_emb a t (ix3 0 0 0)]
  exact (((cfg1 a).win 2).blk t).view.emb_mem_set _

/-- After the region the output array holds `gathered` at every entry `(b, 0, 0)`: point `b` wrote it there, and whatever
    another point writes over it is the same function's value. -/
theorem arr_entry (c : Dev nD) (b : Fin 16384) :
    (dotDat V a c).arrAt 2 (cfg1 a).N (ix3 b 0 0) = gathered V a hu hi c (ix3 b 0 0) :=
  (dotDat V a c).arrAt_apply_of_mem 2 (gathered V a hu hi c) (fun t _ => written_back V a hu hi c t) (cfg1 a).N
    ⟨b.val, Nat.lt_of_lt_of_eq b.isLt N_1.symm⟩ _ (Nat.lt_of_lt_of_eq b.isLt N_1.symm) (out_flush a _)
    (mem_out_blk a ⟨b.val, Nat.lt_of_lt_of_eq b.isLt N_1.symm⟩)

end AnyTables

/-- After the dot product, entry `b` of its output array is the inner product of row `user[b]` of the user table and row
    `item[b]` of the item table as the region was entered with them. -/
theorem dot_entry (hO : Ok m) (c : Dev nD) (hu : ∀ j, (userTbl m j).toNat < 100000) (hi : ∀ j, (itemTbl m j).toNat < 50000) (b : Fin 16384) :
    dotOut m hO c (ix3 b 0 0)
      = ∑ d : Fin 64, userRows m c (ix3 (Cert.Spec.rowOf (userTbl m) hu b) 0 d) * itemRows m c (ix3 (Cert.Spec.rowOf (itemTbl m) hi b) 0 d) := by
  have e : dotOut m hO c = (dotDat (Run.V3 m) (adm1 m hO) c).arrAt 2 (cfg1 (adm1 m hO)).N := Run.W4_arr m hO c 2
  exact (congrFun e (ix3 b 0 0)).trans (arr_entry (Run.V3 m) (adm1 m hO) hu hi c b)

end Cert.KernelIdeal.DotValue

end
-- ==== Proof.IdealGlue.lean ====
/-
  The host operations between and after the regions, read at an index: the user table handed to the dot product is rows
  0 … 99999 of the pooled table with a unit middle axis, the item table rows 100000 … 149999, and the program's result
  is the dot product's output with its two unit axes dropped.
-/
import proofs.«412117_j10952166604876_2_alg».proof.Proof.IdealNames
import proofs.«412117_j10952166604876_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Glue

open Idealize.ShloMosaic Idealize.ShloMosaic.TcCoe Idealize.SL.Sem Idealize.ShloMosaic.ValueIdx
open Idealize.ShloMosaic.Pipeline (Dat)
open Cert.KernelIdeal.Gen Cert.KernelIdeal.Bodies Cert.KernelIdeal.Run Cert.KernelIdeal.Tables Cert.KernelIdeal.Names

variable (m : (ℓ : Loc nD τ sig) → Buf (Elt Ideal) ℓ)

/-- The user table handed to the dot product, as a term in the pooled table: the slice of its rows 0 … 99999, recast
    with a unit middle axis. -/
theorem userRows_term (c : Dev nD) :
    userRows m c = shapeCast S100000x1x64 (extractStridedSlice S100000x64 ![0, 0] (pooledTbl m c) slices_S150000x64_S100000x64_0_0) shapeCasts_S100000x64_S100000x1x64 := by
  show StableHlo.after hostOps1 (Run.W2 m c) (Proc.devRef .tc main_v43) = _
  after_results
  rfl

/-- The item table handed to the dot product: the slice of rows 100000 … 149999 of the pooled table, recast with a unit
    middle axis. -/
theorem itemRows_term (c : Dev nD) :
    itemRows m c = shapeCast S50000x1x64 (extractStridedSlice S50000x64 ![100000, 0] (pooledTbl m c) slices_S150000x64_S50000x64_100000_0) shapeCasts_S50000x64_S50000x1x64 := by
  show StableHlo.after hostOps1 (Run.W2 m c) (Proc.devRef .tc main_v44) = _
  after_results
  rfl

/-- The program's result: the dot product's output recast to a vector. -/
theorem result_term (hO : Ok m) (c : Dev nD) :
    result m hO c = shapeCast S16384 (dotOut m hO c) shapeCasts_S16384x1x1_S16384 := by
  show StableHlo.after hostOps2 (Run.W4 m hO c) (Proc.devRef .tc main_v46) = _
  after_results
  rfl

/-- Rows `o … o + n − 1` of a 64-column table, recast with a unit middle axis, read at `(r, u, d)`: the table at
    `(o + r, d)`. Both arrays are laid out row by row, so the position `(r · 1 + u) · 64 + d` in the recast array is
    the position `r · 64 + d` in the slice (`u = 0`), and row `r` of the slice is row `o + r` of the table. -/
theorem rows_unit_apply {N n o : ℕ} (X : (⟨2, ![N, 64]⟩ : Shape).Idx → EReal)
    (hs : (⟨2, ![N, 64]⟩ : Shape).Slices ![o, 0] ⟨2, ![n, 64]⟩)
    (hc : (⟨2, ![n, 64]⟩ : Shape).ShapeCasts ⟨3, ![n, 1, 64]⟩) (r : Fin n) (u : Fin 1) (d : Fin 64) (k : Fin N)
    (hk : k.val = o + r.val) :
    shapeCast ⟨3, ![n, 1, 64]⟩ (extractStridedSlice ⟨2, ![n, 64]⟩ ![o, 0] X hs) hc (ix3 r u d) = X (ix2 k d) := by
  have hu : u.val = 0 := by omega
  refine (shapeCast_apply _ hc (ix3 r u d) (ix2 r d) ?_).trans ?_
  · rw [Shape.rowMajor_val_three, Shape.rowMajor_val_two]
    show r.val * 64 + d.val = (r.val * 1 + u.val) * 64 + d.val
    rw [hu, Nat.mul_one, Nat.add_zero]
  · exact extractStridedSlice_apply ![o, 0] X hs (ix2 r d) (ix2 k d) fun a => match a with
      | ⟨0, _⟩ => by show k.val = o + r.val; exact hk
      | ⟨1, _⟩ => by show d.val = 0 + d.val; omega

theorem user_rows (c : Dev nD) (r : Fin 100000) (d : Fin 64) :
    userRows m c (ix3 r 0 d) = pooledTbl m c (ix2 (Cert.Spec.userRow r) d) := by
  rw [userRows_term m c]
  generalize pooledTbl m c = X
  exact rows_unit_apply X slices_S150000x64_S100000x64_0_0 shapeCasts_S100000x64_S100000x1x64 r 0 d (Cert.Spec.userRow r)
    (by show r.val = 0 + r.val; omega)

theorem item_rows (c : Dev nD) (r : Fin 50000) (d : Fin 64) :
    itemRows m c (ix3 r 0 d) = pooledTbl m c (ix2 (Cert.Spec.itemRow r) d) := by
  rw [itemRows_term m c]
  generalize pooledTbl m c = X
  exact rows_unit_apply X slices_S150000x64_S50000x64_100000_0 shapeCasts_S50000x64_S50000x1x64 r 0 d (Cert.Spec.itemRow r) rfl

theorem out_flat (hO : Ok m) (c : Dev nD) (b : Fin 16384) :
    result m hO c (ValueIdx.ix1 b) = dotOut m hO c (ix3 b 0 0) := by
  rw [result_term m hO c]
  generalize dotOut m hO c = Y
  -- position `b` of the vector is position `(b · 1 + 0) · 1 + 0` of the array with two unit axes
  refine shapeCast_apply Y shapeCasts_S16384x1x1_S16384 (ValueIdx.ix1 b) (ix3 b 0 0) ?_
  rw [Shape.rowMajor_val_three, Shape.rowMajor_val_one]
  show (b.val * 1 + 0) * 1 + 0 = b.val
  omega

end Cert.KernelIdeal.Glue

end
-- ==== Proof.IdealValue.lean ====
/-
  The idealized program's result, index by index. Entry `b` of the result is the dot product's output at `b`; that is
  the inner product of row `user[b]` of the user table and row `item[b]` of the item table it was handed; those are rows
  `user[b]` and `100000 + item[b]` of the pooled table; and an entry of the pooled table is the average of the four layer
  tables' entries. Together: the specification's score of the four layer tables the mean pool was entered with.
-/
import proofs.«412117_j10952166604876_2_alg».proof.Proof.IdealPoolValue
import proofs.«412117_j10952166604876_2_alg».proof.Proof.IdealDotValue
import proofs.«412117_j10952166604876_2_alg».proof.Proof.IdealGlue

noncomputable section

namespace Cert.KernelIdeal.Value

open Idealize.ShloMosaic Idealize.ShloMosaic.TcCoe Idealize.SL.Sem Idealize.ShloMosaic.ValueIdx
open Cert.KernelIdeal.Gen Cert.KernelIdeal.Run Cert.KernelIdeal.Tables Cert.KernelIdeal.Names

variable (m : (ℓ : Loc nD τ sig) → Buf (Elt Ideal) ℓ)

theorem result_eq (hO : Ok m) (c : Dev nD) (hu : ∀ j, (userTbl m j).toNat < 100000) (hi : ∀ j, (itemTbl m j).toNat < 50000) :
    result m hO c = Cert.Spec.score (layerA m c) (layerB m c) (layerC m c) (layerD m c)
      (Cert.Spec.rowOf (userTbl m) hu) (Cert.Spec.rowOf (itemTbl m) hi) := by
  funext j
  obtain ⟨b, rfl⟩ : ∃ b, j = ValueIdx.ix1 b := ⟨j 0, ValueIdx.eq_ix1 j⟩
  rw [Cert.KernelIdeal.Glue.out_flat m hO c b, Cert.KernelIdeal.DotValue.dot_entry m hO c hu hi b]
  unfold Cert.Spec.score
  refine Finset.sum_congr rfl fun d _ => ?_
  rw [Cert.KernelIdeal.Glue.user_rows, Cert.KernelIdeal.Glue.item_rows,
    Cert.KernelIdeal.PoolValue.pooled_entry, Cert.KernelIdeal.PoolValue.pooled_entry]

end Cert.KernelIdeal.Value

end
-- ==== Proof.LibRowGather.lean ====
/-
  A row lookup on the host, read at an index. What table[rows] of a matrix table : [N, C] at an integer array rows : [E]
  lowers to: a gather with offset axis 1, collapsed slice axis 0, start index map [0], slices of one whole row, over the
  rows laid out as [E, 1]. Result element (e, k) is the table at row rows[e, 0], read as a signed integer and kept inside
  [0, N − 1] as the host's gather keeps every start index, and at column k.
-/
import Idealize.ShloMosaic.Lib.ValueIdx

noncomputable section

namespace Cert.Lib.RowGather

open Idealize.ShloMosaic Idealize.ShloMosaic.ValueIdx

variable {α : Type}

/-- Those dimension numbers for a table [N, C], rows [E, 1] and result [E, C]; their conditions are decided on a
    program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Coordinates

variable {N C E w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the table's row axis the operand index is the start index: the word at (e, 0), signed, kept inside the table. -/
theorem coord_row :
    (rowDims N C E wf).start (ix2 e k) idx (0 : Fin 2) + (rowDims N C E wf).batchCoord (ix2 e k) (0 : Fin 2)
      + (rowDims N C E wf).offCoord (ix2 e k) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C E wf).startIndexMap from List.mem_singleton.mpr rfl)]
  have hsi : (rowDims N C E wf).siIdx (ix2 e k) ⟨List.idxOf (0 : Fin 2) (rowDims N C E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- On the table's column axis the operand index is the result's column. -/
theorem coord_col :
    (rowDims N C E wf).start (ix2 e k) idx (1 : Fin 2) + (rowDims N C E wf).batchCoord (ix2 e k) (1 : Fin 2)
      + (rowDims N C E wf).offCoord (ix2 e k) (1 : Fin 2) = k.val := by
  rw [GatherDims.batchCoord_eq_zero _ _ _ List.not_mem_nil]
  have hs : (rowDims N C E wf).start (ix2 e k) idx (1 : Fin 2) = 0 := by
    unfold GatherDims.start
    rw [dif_neg (fun h => absurd (congrArg Fin.val (List.mem_singleton.mp h)) Nat.one_ne_zero)]
  rw [hs]
  simp only [Nat.add_zero, Nat.zero_add]
  rfl

end Coordinates

/-- The lookup read at (e, k): row rows[e, 0] (signed, kept inside the table), column k. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 ⟨min (idx (ix2 e ⟨0, Nat.one_pos⟩)).toInt.toNat (N - 1), by omega⟩ k) := by
  unfold Host.gather
  congr 1
  funext a
  refine Fin.ext ?_
  match a with
  | ⟨0, _⟩ => exact coord_row wf idx e k
  | ⟨1, _⟩ => exact coord_col wf idx e k

end Cert.Lib.RowGather

end
-- ==== Proof.RefValue.lean ====
/-
  The reference's result, index by index. Its four layer tables are the concatenated embeddings and three rounds of
  propagation (gather the rows the edges' columns name, scale each by its edge's weight, add them up at the edges'
  rows); it adds the four in order, divides by four, cuts the result into its user and item halves, gathers the row
  each pair names from each half, multiplies them entry by entry and sums over the 64 columns. Dividing by four is
  multiplying by one quarter on every extended real, and an index that is at least 0 and below the table's height
  gathers its own row, so the result is the specification's score of the four layer tables.
-/
import proofs.«412117_j10952166604876_2_alg».proof.Proof.Gen.ReferenceIdeal.Run
import proofs.«412117_j10952166604876_2_alg».proof.Proof.Gen.ReferenceIdeal.Read
import proofs.«412117_j10952166604876_2_alg».proof.Proof.Spec
import proofs.«412117_j10952166604876_2_alg».proof.Proof.LibRowGather
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ)

/-- Layer 0: the user embeddings stacked on the item embeddings. -/
def layer0 (c : Dev nD) : FVec Ideal S150000x64 .f32 :=
  concatenate S150000x64 0 [⟨S100000x64, (m ((c.tc : Thread nD τ).loc main_arg0))⟩, ⟨S50000x64, (m ((c.tc : Thread nD τ).loc main_arg1))⟩] concatenates_S100000x64_S50000x64_S150000x64_d0

/-- One round of propagation of a layer table `x` along the edges: for every edge, row `col` of `x` (a negative column
    counted from the end) times the edge's weight, added into row `row` of a table of zeros. -/
def propagate (c : Dev nD) (x : FVec Ideal S150000x64 .f32) : FVec Ideal S150000x64 .f32 :=
  Host.scatterAdd scatter_S150000x64_S2400000x1_S2400000x64_1_0_0_1 (broadcastInDim S150000x64 ![] bcast_S_S150000x64 (constant (F := Ideal) S_ .f32 0x00000000#32)) (broadcastInDim S2400000x1 ![0] bcast_S2400000_S2400000x1_0 (m ((c.tc : Thread nD τ).loc main_arg2))) (mulf (Host.gather gather_S150000x64_S2400000x1_S2400000x64_1_0_n_n_0_1_164 x (broadcastInDim S2400000x1 ![0] bcast_S2400000_S2400000x1_0 (select (cmpi .slt (m ((c.tc : Thread nD τ).loc main_arg3)) (broadcastInDim S2400000 ![] bcast_S_S2400000 (constantI S_ 32 0#32))) (addi (m ((c.tc : Thread nD τ).loc main_arg3)) (broadcastInDim S2400000 ![] bcast_S_S2400000 (constantI S_ 32 150000#32))) (m ((c.tc : Thread nD τ).loc main_arg3))))) (broadcastInDim S2400000x64 ![0, 1] bcast_S2400000x1_S2400000x64_0_1 (broadcastInDim S2400000x1 ![0] bcast_S2400000_S2400000x1_0 (m ((c.tc : Thread nD τ).loc main_arg4)))))

/-- The user and item tables as plain arrays of words. -/
abbrev userIdx (c : Dev nD) : S16384.Idx → BitVec 32 := m ((c.tc : Thread nD τ).loc main_arg5)
abbrev itemIdx (c : Dev nD) : S16384.Idx → BitVec 32 := m ((c.tc : Thread nD τ).loc main_arg6)

/-! ## Words: a row number inside the table is its own row -/

/-- A word below `2 ^ 31` is not negative: compared signed with zero it gives the bit `0`. -/
theorem cmpi_slt_zero_of_lt (w : BitVec 32) (h : w.toNat < 2 ^ 31) : IntOp.cmpi .slt w 0#32 = 0#1 := by
  have hm : w.msb = false := BitVec.msb_eq_false_iff_two_mul_lt.mpr (by omega)
  show BitVec.ofBool (w.slt 0#32) = 0#1
  rw [BitVec.slt_zero_eq_msb, hm]
  rfl

/-- A word below `2 ^ 31` read as a signed integer is the natural number it spells. -/
theorem toInt_toNat_of_lt (w : BitVec 32) (h : w.toNat < 2 ^ 31) : w.toInt.toNat = w.toNat := by
  rw [BitVec.toInt_eq_toNat_of_lt (by omega)]
  exact Int.toNat_natCast _

/-! ## The final stage as a function of the four layer tables and the two index arrays -/

/-- The average of the four layer tables: their sum in order, divided by the constant four. -/
def light (E0 E1 E2 E3 : FVec Ideal S150000x64 .f32) : FVec Ideal S150000x64 .f32 :=
  Host.divf (F := Ideal) (addf (addf (addf E0 E1) E2) E3)
    (broadcastInDim S150000x64 ![] bcast_S_S150000x64 (constant (F := Ideal) S_ .f32 0x40800000#32))

/-- The row numbers as the gather takes them: a negative one counted from the end `n`, laid out as one column. -/
def rows (n : BitVec 32) (u : IVec S16384 32) : IVec S16384x1 32 :=
  broadcastInDim S16384x1 ![0] bcast_S16384_S16384x1_0
    (select (cmpi .slt u (broadcastInDim S16384 ![] bcast_S_S16384 (constantI S_ 32 0#32)))
      (addi u (broadcastInDim S16384 ![] bcast_S_S16384 (constantI S_ 32 n))) u)

/-- The reference's last stage: average, cut into the user and item halves, look up each pair's two rows, multiply
    them entry by entry and sum over the columns from zero. -/
def finalStage (E0 E1 E2 E3 : FVec Ideal S150000x64 .f32) (u i : IVec S16384 32) : FVec Ideal S16384 .f32 :=
  Host.reduceAdd (F := Ideal) (φ := .f32)
    (mulf (F := Ideal) (φ := .f32)
      (Host.gather gather_S100000x64_S16384x1_S16384x64_1_0_n_n_0_1_164
        (extractStridedSlice S100000x64 ![0, 0] (light E0 E1 E2 E3) slices_S150000x64_S100000x64_0_0) (rows 100000#32 u))
      (Host.gather gather_S50000x64_S16384x1_S16384x64_1_0_n_n_0_1_164
        (extractStridedSlice S50000x64 ![100000, 0] (light E0 E1 E2 E3) slices_S150000x64_S50000x64_100000_0) (rows 50000#32 i)))
    (constant (F := Ideal) S_ .f32 0x00000000#32) reducesTo_S16384x64_S16384_d1 h_S_

/-- The reference's result is its last stage applied to its four layer tables. -/
theorem result_fold (c : Dev nD) :
    Cert.ReferenceIdeal.Value.res_main_v62 (F := Ideal) m c
      = finalStage (layer0 m c) (propagate m c (layer0 m c)) (propagate m c (propagate m c (layer0 m c)))
          (propagate m c (propagate m c (propagate m c (layer0 m c)))) (userIdx m c) (itemIdx m c) := by
  unfold Cert.ReferenceIdeal.Value.res_main_v62
  rfl

/-! ## Each piece of the last stage read at an index -/

/-- The constant four. -/
theorem ofBits_four : Ideal.ofBits .f32 0x40800000#32 = ((4 : ℝ) : EReal) := by
  simp [Ideal.ofBits, Ideal.ieee, -EReal.coe_mul]; norm_num

/-- Dividing by four is multiplying by one quarter: an entry of the average is the specification's. -/
theorem light_apply (E0 E1 E2 E3 : FVec Ideal S150000x64 .f32) (r : Fin 150000) (d : Fin 64) :
    light E0 E1 E2 E3 (ix2 r d) = Cert.Spec.pool E0 E1 E2 E3 r d := by
  show Ideal.div (((E0 (ix2 r d) + E1 (ix2 r d)) + E2 (ix2 r d)) + E3 (ix2 r d))
      (broadcastInDim S150000x64 ![] bcast_S_S150000x64 (constant (F := Ideal) S_ .f32 0x40800000#32) (ix2 r d)) = _
  rw [broadcastInDim_apply _ bcast_S_S150000x64 (constant (F := Ideal) S_ .f32 0x40800000#32) (ix2 r d) ix0 (fun a => a.elim0),
    constant_apply, ofBits_four, Ideal.div_coe (by norm_num)]
  rfl

/-- The user half: row `r` of it is row `r` of the whole table. -/
theorem users_apply (L : FVec Ideal S150000x64 .f32) (r : Fin 100000) (k : Fin 64) :
    extractStridedSlice S100000x64 ![0, 0] L slices_S150000x64_S100000x64_0_0 (ix2 r k) = L (ix2 (Cert.Spec.userRow r) k) :=
  extractStridedSlice_apply ![0, 0] L slices_S150000x64_S100000x64_0_0 (ix2 r k) (ix2 (Cert.Spec.userRow r) k) (fun a => match a with
    | ⟨0, _⟩ => by show r.val = 0 + r.val; omega
    | ⟨1, _⟩ => by show k.val = 0 + k.val; omega)

/-- The item half: row `r` of it is row `100000 + r` of the whole table. -/
theorem items_apply (L : FVec Ideal S150000x64 .f32) (r : Fin 50000) (k : Fin 64) :
    extractStridedSlice S50000x64 ![100000, 0] L slices_S150000x64_S50000x64_100000_0 (ix2 r k) = L (ix2 (Cert.Spec.itemRow r) k) :=
  extractStridedSlice_apply ![100000, 0] L slices_S150000x64_S50000x64_100000_0 (ix2 r k) (ix2 (Cert.Spec.itemRow r) k) (fun a => match a with
    | ⟨0, _⟩ => by show 100000 + r.val = 100000 + r.val; rfl
    | ⟨1, _⟩ => by show k.val = 0 + k.val; omega)

/-- A row number that is not negative is kept as it is. -/
theorem rows_apply (n : BitVec 32) (u : IVec S16384 32) (b : Fin 16384) (h : (u (ix1 b)).toNat < 2 ^ 31) :
    rows n u (ix2 b ⟨0, Nat.one_pos⟩) = u (ix1 b) := by
  unfold rows
  refine (broadcastInDim_apply _ bcast_S16384_S16384x1_0 _ (ix2 b ⟨0, Nat.one_pos⟩) (ix1 b) (fun a => ?_)).trans ?_
  · match a with
    | ⟨0, _⟩ => show b.val = if (16384 : Nat) = 1 then 0 else b.val; rw [if_neg (by decide)]
  · have hz : cmpi .slt u (broadcastInDim S16384 ![] bcast_S_S16384 (constantI S_ 32 0#32)) (ix1 b) = 0#1 := by
      show IntOp.cmpi .slt (u (ix1 b)) (broadcastInDim S16384 ![] bcast_S_S16384 (constantI S_ 32 0#32) (ix1 b)) = 0#1
      rw [broadcastInDim_apply _ bcast_S_S16384 (constantI S_ 32 0#32) (ix1 b) ix0 (fun a => a.elim0)]
      exact cmpi_slt_zero_of_lt _ h
    rw [select_apply, hz, select_zero]

/-- Looking up the users' rows: pair `b` reads the row its index names. -/
theorem userGather_apply (x : FVec Ideal S100000x64 .f32) (u : IVec S16384 32) (hu : ∀ j, (u j).toNat < 100000)
    (b : Fin 16384) (k : Fin 64) :
    Host.gather gather_S100000x64_S16384x1_S16384x64_1_0_n_n_0_1_164 x (rows 100000#32 u) (ix2 b k)
      = x (ix2 (Cert.Spec.rowOf u hu b) k) := by
  have hb : (u (ix1 b)).toNat < 100000 := hu (ix1 b)
  refine (Cert.Lib.RowGather.rowGather_apply (by norm_num) gather_S100000x64_S16384x1_S16384x64_1_0_n_n_0_1_164_wf
    x (rows 100000#32 u) b k).trans (congrArg (fun r => x (ix2 r k)) (Fin.ext ?_))
  show min (rows 100000#32 u (ix2 b ⟨0, Nat.one_pos⟩)).toInt.toNat (100000 - 1) = (u (ix1 b)).toNat
  rw [rows_apply _ u b (by omega), toInt_toNat_of_lt _ (by omega)]
  omega

/-- Looking up the items' rows: pair `b` reads the row its index names. -/
theorem itemGather_apply (x : FVec Ideal S50000x64 .f32) (i : IVec S16384 32) (hi : ∀ j, (i j).toNat < 50000)
    (b : Fin 16384) (k : Fin 64) :
    Host.gather gather_S50000x64_S16384x1_S16384x64_1_0_n_n_0_1_164 x (rows 50000#32 i) (ix2 b k)
      = x (ix2 (Cert.Spec.rowOf i hi b) k) := by
  have hb : (i (ix1 b)).toNat < 50000 := hi (ix1 b)
  refine (Cert.Lib.RowGather.rowGather_apply (by norm_num) gather_S50000x64_S16384x1_S16384x64_1_0_n_n_0_1_164_wf
    x (rows 50000#32 i) b k).trans (congrArg (fun r => x (ix2 r k)) (Fin.ext ?_))
  show min (rows 50000#32 i (ix2 b ⟨0, Nat.one_pos⟩)).toInt.toNat (50000 - 1) = (i (ix1 b)).toNat
  rw [rows_apply _ i b (by omega), toInt_toNat_of_lt _ (by omega)]
  omega

/-- The sum over the columns from zero: entry `b` is the sum of row `b`. -/
theorem rowSum_apply (y : FVec Ideal S16384x64 .f32) (b : Fin 16384) :
    Host.reduceAdd (F := Ideal) (φ := .f32) y (constant (F := Ideal) S_ .f32 0x00000000#32) reducesTo_S16384x64_S16384_d1 h_S_ (ix1 b)
      = ∑ k : Fin 64, y (ix2 b k) := by
  simp only [Host.reduceAdd, Ideal.hostReduceAdd_def]
  rw [Ideal.hostReduceAdd_single reducesTo_S16384x64_S16384_d1 (by decide), constant_apply, Ideal.ofBits_zero_f32, zero_add]
  refine Finset.sum_congr rfl fun k _ => ?_
  exact congrArg y (funext fun a => Fin.ext (by match a with | ⟨0, _⟩ => rfl | ⟨1, _⟩ => rfl))

/-- The last stage is the specification's score. -/
theorem finalStage_eq (E0 E1 E2 E3 : FVec Ideal S150000x64 .f32) (u i : IVec S16384 32)
    (hu : ∀ j, (u j).toNat < 100000) (hi : ∀ j, (i j).toNat < 50000) :
    finalStage E0 E1 E2 E3 u i = Cert.Spec.score E0 E1 E2 E3 (Cert.Spec.rowOf u hu) (Cert.Spec.rowOf i hi) := by
  funext j
  obtain ⟨b, rfl⟩ : ∃ b : Fin 16384, j = ix1 b := ⟨j 0, eq_ix1 j⟩
  unfold finalStage
  rw [rowSum_apply]
  show _ = ∑ d : Fin 64, Cert.Spec.pool E0 E1 E2 E3 (Cert.Spec.userRow (Cert.Spec.rowOf u hu b)) d
      * Cert.Spec.pool E0 E1 E2 E3 (Cert.Spec.itemRow (Cert.Spec.rowOf i hi b)) d
  refine Finset.sum_congr rfl fun k _ => ?_
  rw [mulf_apply, userGather_apply _ u hu, itemGather_apply _ i hi, users_apply, items_apply, light_apply, light_apply]

/-- Under the index ranges the reference's result is the specification's score of its four layer tables. -/
theorem result_eq (c : Dev nD) (hu : ∀ j, (userIdx m c j).toNat < 100000) (hi : ∀ j, (itemIdx m c j).toNat < 50000) :
    (Cert.ReferenceIdeal.Value.res_main_v62 (F := Ideal) m c : S16384.Idx → EReal)
      = Cert.Spec.score (layer0 m c) (propagate m c (layer0 m c)) (propagate m c (propagate m c (layer0 m c)))
          (propagate m c (propagate m c (propagate m c (layer0 m c))))
          (Cert.Spec.rowOf (userIdx m c) hu) (Cert.Spec.rowOf (itemIdx m c) hi) := by
  rw [result_fold]
  exact finalStage_eq _ _ _ _ _ _ hu hi

end Cert.ReferenceIdeal.RefValue

end
-- ==== Proof.Layers.lean ====
/-
  The two idealized programs build the same four layer tables. Both start from the user embeddings stacked on the
  item embeddings and apply the same round of propagation three times — the same gather of rows at the edges' columns,
  the same scaling by the edges' weights, the same scatter-add at the edges' rows, operation for operation — so from
  memories that agree on the embeddings, the edges' rows and columns and their weights, the tables the kernel's mean
  pool is entered with are the reference's layers 0 to 3.
-/
import proofs.«412117_j10952166604876_2_alg».proof.Proof.IdealNames
import proofs.«412117_j10952166604876_2_alg».proof.Proof.RefValue
import Idealize.ShloMosaic.Lib.StableHlo.Run

set_option maxRecDepth 16384

noncomputable section

namespace Cert.Proof.Layers

open Idealize.ShloMosaic Idealize.ShloMosaic.TcCoe Idealize.SL.Sem
open Cert.KernelIdeal Cert.KernelIdeal.Gen Cert.KernelIdeal.Run Cert.KernelIdeal.Names
open Cert.ReferenceIdeal.RefValue

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Layer 0 needs the two embedding tables only. -/
theorem layerA_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    layerA m c = layer0 m' c := by
  dsimp only [Names.layerA, Run.V1, Run.W1, Run.W0]
  after_results_simp
  unfold layer0
  rw [h0, h1]

set_option maxHeartbeats 1000000 in
theorem layerB_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    layerB m c = propagate m' c (layer0 m' c) := by
  dsimp only [Names.layerB, Run.V1, Run.W1, Run.W0]
  after_results_simp
  unfold propagate layer0
  rw [h0, h1, h2, h3, h4]
  rfl

set_option maxHeartbeats 2000000 in
theorem layerC_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    layerC m c = propagate m' c (propagate m' c (layer0 m' c)) := by
  dsimp only [Names.layerC, Run.V1, Run.W1, Run.W0]
  after_results_simp
  unfold propagate layer0
  rw [h0, h1, h2, h3, h4]
  rfl

set_option maxHeartbeats 4000000 in
theorem layerD_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    layerD m c = propagate m' c (propagate m' c (propagate m' c (layer0 m' c))) := by
  dsimp only [Names.layerD, Run.V1, Run.W1, Run.W0]
  after_results_simp
  unfold propagate layer0
  rw [h0, h1, h2, h3, h4]
  rfl

end Cert.Proof.Layers

end
-- ==== Proof.lean ====
/-
  The claims. A light graph convolution scores 16384 user–item pairs: the user and item embeddings are stacked into
  one table of 150000 rows, propagated three times along 2.4 million weighted edges (gather, scale, scatter-add), the
  four layer tables are averaged, and each pair's score is the inner product of its user's and its item's averaged
  rows. The kernel computes the three propagations as the reference does, averages in a first pipelined region —
  25 blocks of 6000 rows, the four tables added in the reference's order and multiplied by one quarter, which on every
  extended real is the reference's division by four — and scores in a second one whose row windows are driven by the two
  index tables: one row of each half per pair, multiplied entry by entry and summed over the 64 columns, as the
  reference's gathers, product and row sum do. The second region runs only where every index names a row of its table;
  the precondition says so (an index at least 0 and below the table's height), and there the reference's gathers read
  the same rows. Frames: every item of either kernel program writes only its own result, so the arguments end as
  launched; the reference's frame is its run with the result dropped. Nothing was rewritten by the idealization.
-/
import proofs.«412117_j10952166604876_2_alg».proof.Defs
import proofs.«412117_j10952166604876_2_alg».proof.Proof.Gen.Kernel
import proofs.«412117_j10952166604876_2_alg».proof.Proof.Gen.KernelIdeal
import proofs.«412117_j10952166604876_2_alg».proof.Proof.Gen.ReferenceIdeal
import proofs.«412117_j10952166604876_2_alg».proof.Proof.Gen.Pre_finite_inputs
import proofs.«412117_j10952166604876_2_alg».proof.Proof.BitsFrame
import proofs.«412117_j10952166604876_2_alg».proof.Proof.IdealFrame
import proofs.«412117_j10952166604876_2_alg».proof.Proof.IdealValue
import proofs.«412117_j10952166604876_2_alg».proof.Proof.RefValue
import proofs.«412117_j10952166604876_2_alg».proof.Proof.Layers
import Idealize.ShloMosaic.Adequacy
import Idealize.ShloMosaic.Init

noncomputable section

namespace Cert.Proof

open Idealize.ShloMosaic Idealize.SL.Sem

/-- The rows two equal index arrays name are the same rows. -/
theorem rowOf_congr {n : Nat} {w w' : (⟨1, ![16384]⟩ : Shape).Idx → BitVec 32} (e : w = w')
    (h : ∀ j, (w j).toNat < n) (h' : ∀ j, (w' j).toNat < n) : Cert.Spec.rowOf w h = Cert.Spec.rowOf w' h' := by
  subst e; rfl

theorem frame_k : Cert.frame_Kernel := fun m ρ hpre =>
  Cert.Kernel.Run.frame m ρ (Cert.Kernel.Run.ok_of_pre m hpre)

theorem frame_ki : Cert.frame_KernelIdeal := fun m ρ hpre =>
  Cert.KernelIdeal.Run.frame m ρ (Cert.KernelIdeal.Run.ok_of_pre m hpre)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the specification's score of the same four
    layer tables at the same rows. -/
theorem algebraic : Cert.algebraic_KernelIdeal_ReferenceIdeal := by
  intro m ρ m' ρ' hpre hagree
  have hO : Cert.KernelIdeal.Run.Ok m := Cert.KernelIdeal.Run.ok_of_pre m hpre
  have hrows := Cert.KernelIdeal.Tables.rows_of_pre m 0 (hpre 0)
  refine ⟨fun c => Cert.KernelIdeal.Names.result m hO c, Cert.KernelIdeal.Run.run_value m ρ hO, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  obtain ⟨h0, h1, h2, h3, h4, h5, h6⟩ := hagree 0
  have hu : ∀ j, (Cert.KernelIdeal.Tables.userTbl m j).toNat < 100000 := hrows.1
  have hi : ∀ j, (Cert.KernelIdeal.Tables.itemTbl m j).toNat < 50000 := hrows.2
  have e5 : Cert.ReferenceIdeal.RefValue.userIdx m' 0 = Cert.KernelIdeal.Tables.userTbl m := h5
  have e6 : Cert.ReferenceIdeal.RefValue.itemIdx m' 0 = Cert.KernelIdeal.Tables.itemTbl m := h6
  have hu' : ∀ j, (Cert.ReferenceIdeal.RefValue.userIdx m' 0 j).toNat < 100000 := fun j => by rw [e5]; exact hu j
  have hi' : ∀ j, (Cert.ReferenceIdeal.RefValue.itemIdx m' 0 j).toNat < 50000 := fun j => by rw [e6]; exact hi j
  calc Cert.ReferenceIdeal.Value.res_main_v62 (F := Ideal) m' 0
    _ = Cert.Spec.score (Cert.ReferenceIdeal.RefValue.layer0 m' 0)
          (Cert.ReferenceIdeal.RefValue.propagate m' 0 (Cert.ReferenceIdeal.RefValue.layer0 m' 0))
          (Cert.ReferenceIdeal.RefValue.propagate m' 0 (Cert.ReferenceIdeal.RefValue.propagate m' 0 (Cert.ReferenceIdeal.RefValue.layer0 m' 0)))
          (Cert.ReferenceIdeal.RefValue.propagate m' 0 (Cert.ReferenceIdeal.RefValue.propagate m' 0 (Cert.ReferenceIdeal.RefValue.propagate m' 0 (Cert.ReferenceIdeal.RefValue.layer0 m' 0))))
          (Cert.Spec.rowOf (Cert.ReferenceIdeal.RefValue.userIdx m' 0) hu') (Cert.Spec.rowOf (Cert.ReferenceIdeal.RefValue.itemIdx m' 0) hi') :=
        Cert.ReferenceIdeal.RefValue.result_eq m' 0 hu' hi'
    _ = Cert.Spec.score (Cert.KernelIdeal.Names.layerA m 0) (Cert.KernelIdeal.Names.layerB m 0) (Cert.KernelIdeal.Names.layerC m 0)
          (Cert.KernelIdeal.Names.layerD m 0) (Cert.Spec.rowOf (Cert.KernelIdeal.Tables.userTbl m) hu) (Cert.Spec.rowOf (Cert.KernelIdeal.Tables.itemTbl m) hi) := by
        rw [Cert.Proof.Layers.layerA_eq m m' 0 h0 h1, Cert.Proof.Layers.layerB_eq m m' 0 h0 h1 h2 h3 h4,
          Cert.Proof.Layers.layerC_eq m m' 0 h0 h1 h2 h3 h4, Cert.Proof.Layers.layerD_eq m m' 0 h0 h1 h2 h3 h4,
          rowOf_congr e5 hu' hu, rowOf_congr e6 hi' hi]
    _ = Cert.KernelIdeal.Names.result m hO 0 := (Cert.KernelIdeal.Value.result_eq m hO 0 hu hi).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
